-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8192x2048 .f32) (main_arg1 : FVec F S8x2048x8192 .f32) (main_arg2 : FVec F S8x4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S1x128x2048 : Shape := ⟨3, ![1, 128, 2048]⟩
abbrev S1x2048x512 : Shape := ⟨3, ![1, 2048, 512]⟩
abbrev S1x512x2048 : Shape := ⟨3, ![1, 512, 2048]⟩
abbrev S128x2048 : Shape := ⟨2, ![128, 2048]⟩
abbrev S2048x512 : Shape := ⟨2, ![2048, 512]⟩
abbrev S128x512 : Shape := ⟨2, ![128, 512]⟩
abbrev S512x2048 : Shape := ⟨2, ![512, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x2048, .f32⟩
  | .hbm, ⟨5, _⟩ => ⟨S8192x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x128x2048, .f32⟩
  | .local _ .vmem, ⟨9, _⟩ => ⟨S1x128x2048, .f32⟩
  | .local _ .vmem, ⟨10, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8192x2048_S8x1024x2048 : S8192x2048.ShapeCasts S8x1024x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S128x2048_S1x128x2048 : S128x2048.ShapeCasts S1x128x2048
  shapeCasts_S8x1024x2048_S8192x2048 : S8x1024x2048.ShapeCasts S8192x2048
  dot_S128x2048_S2048x512_S128x512_1_0_0_1_n_n_wf : DotDims.WF S128x2048 S2048x512 S128x512 [1] [0] [0] [1] [] []
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x1024x2048.size a
  hwx0_0 : ∀ i : grid0.Coords, EltTy.bits .f32 = 32 ∨ (Rect.block (s := S8x1024x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .f32 = 32 ∨ (Rect.block (s := S8x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x8192.size a
  hwx0_2 : ∀ i : grid0.Coords, EltTy.bits .f32 = 32 ∨ (Rect.block (s := S8x2048x8192) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .f32 = 32 ∨ (Rect.block (s := S8x4096x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S8x1024x2048.size a
  hwx0_4 : ∀ i : grid0.Coords, EltTy.bits .f32 = 32 ∨ (Rect.block (s := S8x1024x2048) S1x128x2048.size (cc0_transform_4 i) (hinb0_4 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x8192 : Shape := ⟨3, ![8, 2048, 8192]⟩
abbrev S8x4096x2048 : Shape := ⟨3, ![8, 4096, 2048]⟩
abbrev S8x1024x2048 : Shape := ⟨3, ![8, 1024, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .hbm, ⟨4, _⟩ => ⟨S8x1024x8192, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S8x1024x4096, .f32⟩
  | .hbm, ⟨9, _⟩ => ⟨S_, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.KI.Base.lean ====
/-
  What both the frame and the launch of the idealized kernel program are stated over: the contents of the
  TensorCore's arrays when the kernel region is entered (the one host reshape of the first argument has run),
  and each window's block of its array at a grid point.
-/
import proofs.«143651_j38036230373627_1_alg».proof.Proof.Gen.KernelIdeal.Launch
import proofs.«143651_j38036230373627_1_alg».proof.Proof.Gen.KernelIdeal.Skeleton
import proofs.«143651_j38036230373627_1_alg».proof.Proof.Gen.KernelIdeal.Points
import Idealize.ShloMosaic.Lib.Pipeline.FrameBody
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- Core `c`'s array contents when the region is entered, as a valuation: the launch contents after the reshape
    of the token matrix into one slab per expert. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Runs.lean ====
/-
  What the three runs of the kernel body share. The grid is 8 experts × 8 token tiles × 8 chunks of the
  intermediate axis, walked with the chunk coordinate fastest, so a point's chunk is its number modulo 8.
  The body resets its accumulator at chunk 0 and copies it to the output block at chunk 7: three control
  cases (chunk 0; chunks 1 to 6; chunk 7). The output window is idle and not written back except at chunk 7.
  Each input window holds its block of its array at every point, fetched there or not.
-/
import proofs.«143651_j38036230373627_1_alg».proof.Proof.KI.Base
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two conditions, in closed form over the grid -/

/-- "This is the first chunk": the body's first conditional, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last chunk": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- At a point that is not the last chunk the body stores nothing into the output block, -/
theorem idleAt0_4 : ∀ t : Fin cfg0.N, ¬cond0_1 (grid0.coords t) → cfg0.idle 4 (grid0.coords t) = true := by decide +kernel
/-- and the pipeline does not write the block back there. -/
theorem noFlush0_4 : ∀ t : Fin cfg0.N, ¬cond0_1 (grid0.coords t) → (cfg0.win 4).flush t = false := by decide +kernel
/-- At the last chunk the body stores the whole output block. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x2048 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S128x2048 .f32 := Memref.whole cc0_scratch0
/-- The accumulator as a view: what it holds is stated through it. -/
abbrev VS0_0 : View sig .tc .vmem S128x2048 .f32 := scM0_0.view
/-- One staging buffer of the output window, through which its contents are stated. -/
abbrev VO0_4 : View sig .tc .vmem S1x128x2048 .f32 := (Memref.whole cc0_stg4_0 : Memref sig .tc .vmem S1x128x2048 .f32).view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Each input window holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.RunA.lean ====
/-
  The body at the first chunk of a token tile: the accumulator, whatever it held, is overwritten with zeros
  and then with zeros plus the chunk's partial product; the output block is not touched.
-/
import proofs.«143651_j38036230373627_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the stores leave (last first) in the output block (none) and in the accumulator, with the proof that
    on whole memrefs — the four inputs at their contents, the output block at contents handed back untouched,
    the accumulator at anything — the body runs to the continuation holding the inputs as they were and the
    accumulator with its pieces written. The pieces are the witness the symbolic run finds. -/
noncomputable def kernelRun0_A (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : cond0_0 i) (hc1 : ¬cond0_1 i)
    (x0 : Vec F S1x128x2048 .f32) (x1 : Vec F S1x2048x512 .f32) (x2 : Vec F S1x2048x512 .f32) (x3 : Vec F S1x512x2048 .f32) :
    Σ' (L4 : List (View.Piece (Elt F) S1x128x2048 .f32)), { LS0 : List (View.Piece (Elt F) S128x2048 .f32) //
      ∀ (xi4 : Vec F S1x128x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨[], ?_, fun xi4 E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.RunB.lean ====
/-
  The body at a middle chunk of a token tile (neither first nor last): the chunk's partial product is added to
  what the accumulator held; the output block is not touched.
-/
import proofs.«143651_j38036230373627_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As at the first chunk, with the accumulator handed over at the contents `xs0` the point before left. -/
noncomputable def kernelRun0_B (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : ¬cond0_1 i)
    (x0 : Vec F S1x128x2048 .f32) (x1 : Vec F S1x2048x512 .f32) (x2 : Vec F S1x2048x512 .f32) (x3 : Vec F S1x512x2048 .f32) (xs0 : Vec F S128x2048 .f32) :
    Σ' (L4 : List (View.Piece (Elt F) S1x128x2048 .f32)), { LS0 : List (View.Piece (Elt F) S128x2048 .f32) //
      ∀ (xi4 : Vec F S1x128x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨[], ?_, fun xi4 E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KI.RunC.lean ====
/-
  The body at the last chunk of a token tile: the chunk's partial product is added to what the accumulator
  held, and the accumulator is then copied into the whole output block.
-/
import proofs.«143651_j38036230373627_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As at a middle chunk, with the output block at anything before and with its pieces written after. -/
noncomputable def kernelRun0_C (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i)
    (x0 : Vec F S1x128x2048 .f32) (x1 : Vec F S1x2048x512 .f32) (x2 : Vec F S1x2048x512 .f32) (x3 : Vec F S1x512x2048 .f32) (xs0 : Vec F S128x2048 .f32) :
    Σ' (L4 : List (View.Piece (Elt F) S1x128x2048 .f32)), { LS0 : List (View.Piece (Elt F) S128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__experts_kernel i arg3 harg3 arg4 harg4 arg5 harg5 arg6 harg6 arg7 harg7 arg8 harg8) K } := by
  refine ⟨?_, ?_, fun E K => ?run⟩
  case run =>
    simp only [cc0__experts_kernel_eq_skeleton]; unfold cc0__experts_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2
    obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.Frame.lean ====
/-
  The frame of the kernel region, point by point. After the body at a point the accumulator holds: at the first
  chunk of a token tile, what that case's stores leave (zeros, then zeros plus the chunk's share); at a later
  chunk, that case's stores over what the point before left. The output block is stored only at the last chunk
  (a copy of the accumulator) and is idle elsewhere. The region invariant tracks the accumulator at these named
  contents between points; before the first point it holds anything. The two windows on the gate-and-up
  weights each hold half of that array's share.
-/
import proofs.«143651_j38036230373627_1_alg».proof.Proof.KI.RunA
import proofs.«143651_j38036230373627_1_alg».proof.Proof.KI.RunB
import proofs.«143651_j38036230373627_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first chunk the two stores into the accumulator cover it. -/
theorem scover0_A (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : cond0_0 i) (hc1 : ¬cond0_1 i)
    (x0 : Vec F S1x128x2048 .f32) (x1 : Vec F S1x2048x512 .f32) (x2 : Vec F S1x2048x512 .f32) (x3 : Vec F S1x512x2048 .f32) (y : S128x2048.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S128x2048.size (by sl_kernel_rfl) y

/-- What the first chunk leaves in the accumulator: its pieces read back. -/
def sout0_A (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : cond0_0 i) (hc1 : ¬cond0_1 i)
    (x0 : Vec F S1x128x2048 .f32) (x1 : Vec F S1x2048x512 .f32) (x2 : Vec F S1x2048x512 .f32) (x3 : Vec F S1x512x2048 .f32) : Vec F S128x2048 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

theorem scover0_B (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : ¬cond0_1 i)
    (x0 : Vec F S1x128x2048 .f32) (x1 : Vec F S1x2048x512 .f32) (x2 : Vec F S1x2048x512 .f32) (x3 : Vec F S1x512x2048 .f32) (xs0 : Vec F S128x2048 .f32) (y : S128x2048.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S128x2048.size (by sl_kernel_rfl) y

/-- What a middle chunk leaves in the accumulator, over what the point before left (`xs0`). -/
def sout0_B (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : ¬cond0_1 i)
    (x0 : Vec F S1x128x2048 .f32) (x1 : Vec F S1x2048x512 .f32) (x2 : Vec F S1x2048x512 .f32) (x3 : Vec F S1x512x2048 .f32) (xs0 : Vec F S128x2048 .f32) : Vec F S128x2048 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

theorem scover0_C (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i)
    (x0 : Vec F S1x128x2048 .f32) (x1 : Vec F S1x2048x512 .f32) (x2 : Vec F S1x2048x512 .f32) (x3 : Vec F S1x512x2048 .f32) (xs0 : Vec F S128x2048 .f32) (y : S128x2048.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S128x2048.size (by sl_kernel_rfl) y

/-- What the last chunk leaves in the accumulator. -/
def sout0_C (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i)
    (x0 : Vec F S1x128x2048 .f32) (x1 : Vec F S1x2048x512 .f32) (x2 : Vec F S1x2048x512 .f32) (x3 : Vec F S1x512x2048 .f32) (xs0 : Vec F S128x2048 .f32) : Vec F S128x2048 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-- At the last chunk the one store into the output block covers it. -/
theorem cover0_C_4 (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i)
    (x0 : Vec F S1x128x2048 .f32) (x1 : Vec F S1x2048x512 .f32) (x2 : Vec F S1x2048x512 .f32) (x3 : Vec F S1x512x2048 .f32) (xs0 : Vec F S128x2048 .f32) (y : S1x128x2048.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x128x2048.size (by sl_kernel_rfl) y

/-- What the last chunk leaves in the output block. -/
def out0_C_4 (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i)
    (x0 : Vec F S1x128x2048 .f32) (x1 : Vec F S1x2048x512 .f32) (x2 : Vec F S1x2048x512 .f32) (x3 : Vec F S1x512x2048 .f32) (xs0 : Vec F S128x2048 .f32) : Vec F S1x128x2048 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- Where the body stores nothing into the output block its contents are not named: a placeholder nothing reads
    (the window is idle there and not written back). -/
def idleOut : Vec F S1x128x2048 .f32 := VO0_4.read (Elt F) VO0_4.junk

/-! ## Point by point -/

/-- THE ACCUMULATION: the output block and the accumulator after the body at position `n`. -/
def outsAt0 (c : Dev nD) : (n : ℕ) → n < cfg0.N → Vec F S1x128x2048 .f32 × Vec F S128x2048 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first chunk. -/
theorem outsAt0_A (c : Dev nD) (t : Fin cfg0.N) (h0 : t.val % 8 = 0) (h1 : ¬t.val % 8 = 7) :
    outsAt0 m c t.val t.isLt = (idleOut, sout0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans rfl

/-- At a middle chunk: over what the point before left. -/
theorem outsAt0_B (c : Dev nD) (t : Fin cfg0.N) (h0 : ¬t.val % 8 = 0) (h1 : ¬t.val % 8 = 7) :
    outsAt0 m c t.val t.isLt = (idleOut, sout0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last chunk: over what the point before left. -/
theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator at anything; afterwards at what
    the point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The arrays as the region finds them; after the body each input's buffer at its block and the output's at the
    accumulation; the tracking invariant; the token slab and the down weights held whole, the gate-and-up weights
    half by each of its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- An input window's buffer is handed back at its block. -/
theorem leaves0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's number modulo 8 says which case it is
    in; the invariant hands over the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 512 := lt_of_lt_of_eq t.isLt (show cfg0.N = 512 from N_0)
  by_cases h1 : t.val % 8 = 7
  · have h0 : ¬t.val % 8 = 0 := by omega
    have hz : t.val ≠ 0 := by omega
    rw [show (dats m 0 c).leavesExact 4 t = owns (c : Thread nD τ) (ms0_4 t) fullShare ((dats m 0 c).after 4 t) from by
      unfold Dat.leavesExact; rw [liveAt0_4 t ((hcond0_1 t).mpr h1)], after0_4]
    rw [outsAt0_C m c t h0 h1]
    unfold out0_C_4 sout0_C; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_C c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C_4 c _ _ _ _ _ _ _ _ _ _ _ _ _ _ _ _ _ _ _ _)
  · have hnc1 : ¬cond0_1 (grid0.coords t) := fun h => h1 ((hcond0_1 t).mp h)
    rw [Dat.leavesExact_idle (dats m 0 c) 4 t (idleAt0_4 t hnc1) (noFlush0_4 t hnc1)]
    by_cases h0 : t.val % 8 = 0
    · rw [outsAt0_A m c t h0 h1]
      unfold sout0_A; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hnc1 (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) hnc1 (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [outsAt0_B m c t h0 h1]
      unfold sout0_B; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) hnc1 (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have hN : cfg0.N = 512 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  iintro ⟨HS0, Hg⟩
  isplitl [HS0]
  · iexists _; iexact HS0
  iexact Hg

end Cert.KernelIdeal.Hand

end
-- ==== Proof.KI.Launch.lean ====
/-
  The launch of the idealized kernel program, for any proof data of its one pipeline: @main is the reshape of the
  token matrix, the kernel region, and the reshape of the region's result. Two of the region's input windows read
  one array (the gate-and-up weights: the gate chunk and the up chunk of a point are two blocks of it), so at the
  region's entry that array's full share is split between the two windows and joined again at the exit.
-/
import proofs.«143651_j38036230373627_1_alg».proof.Proof.KI.Base
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state between the segments -/

/-- What rides beside the buffers up to the region: the generator register at some state, and the core owing
    nothing with nothing recorded. -/
abbrev R0 (c : Dev nD) : sProp 𝕄 :=
  iprop((∃ r, prngReg c r) ∗ owes (c : Thread nD τ) (0 : CellTallies nD τ sig Unit) ∅)

/-- What rides beside the buffers after the region: the generator register at some state, and the core owing
    nothing. -/
abbrev R (c : Dev nD) : sProp 𝕄 :=
  iprop((∃ r, prngReg c r) ∗ ∃ W, owes (c : Thread nD τ) (0 : CellTallies nD τ sig Unit) W)

omit [FloatOps F] in
/-- A core's six unscoped buffers held at a valuation, one by one. -/
theorem held_six (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0))
          ∗ (((c : Thread nD τ).loc main_arg1) ↦{fullShare} W (Proc.devRef .tc main_arg1))
          ∗ (((c : Thread nD τ).loc main_arg2) ↦{fullShare} W (Proc.devRef .tc main_arg2))
          ∗ (((c : Thread nD τ).loc main_v0) ↦{fullShare} W (Proc.devRef .tc main_v0))
          ∗ (((c : Thread nD τ).loc main_v1) ↦{fullShare} W (Proc.devRef .tc main_v1))
          ∗ (((c : Thread nD τ).loc main_v2) ↦{fullShare} W (Proc.devRef .tc main_v2))) := by
  rw [← Pipeline.unscopedBufs_held (Ix := Unit) (Name := ℕ) (U := UR sig nD τ) (Lvl := ℕ) c W]
  unfold unscopedBufs
  rw [bigSep_eq_bigSepL_of_eq [main_arg0, main_arg1, main_arg2, main_v0, main_v1, main_v2] (by decide) (by decide)]
  rfl

/-- The first reshape writes the token slab only: every other array is as launched when the region is entered. -/
theorem V_of_ne (c : Dev nD) (b : Ref sig .tc) (hb : b ≠ main_v0) : V m c b = m ((c : Thread nD τ).loc b) :=
  StableHlo.after_of_forall_not_mem (b := Proc.devRef .tc b) hostOps0 (fun b => m (c, b)) fun op hop => by
    simp only [List.mem_cons, List.mem_nil_iff, or_false] at hop
    subst hop
    simp only [StableHlo.reshape_writes, Finset.mem_singleton]
    exact StableHlo.devRef_ne_of_ne hb

section Data

variable (dats : (p : Fin 1) → (c : Dev nD) → Dat τ (Elt F) Unit ℕ (UR sig nD τ) ℕ (cfgs p) c)

/-- Core `c`'s array contents when the region is left: the entry contents, but the region's output array holds what
    the write-backs left in it. -/
def V1 (c : Dev nD) : Valuation τ sig (Elt F) :=
  Function.update (V0 m c) (Proc.devRef .tc main_v1) ((dats 0 c).arrAt 4 cfg0.N)

theorem V1_v1 (c : Dev nD) : V1 m dats c (Proc.devRef .tc main_v1) = (dats 0 c).arrAt 4 cfg0.N :=
  Function.update_self _ _ _

theorem V1_of_ne (c : Dev nD) (b : Ref sig .tc) (hb : b ≠ main_v1) : V1 m dats c (Proc.devRef .tc b) = V m c b :=
  Function.update_of_ne (StableHlo.devRef_ne_of_ne hb) _ _

/-- The last reshape writes the result only: every other array ends as the region left it. -/
theorem after1_of_ne (c : Dev nD) (b : Ref sig .tc) (hb : b ≠ main_v2) :
    StableHlo.after hostOps1 (V1 m dats c) (Proc.devRef .tc b) = V1 m dats c (Proc.devRef .tc b) :=
  StableHlo.after_of_forall_not_mem (b := Proc.devRef .tc b) hostOps1 (V1 m dats c) fun op hop => by
    simp only [List.mem_cons, List.mem_nil_iff, or_false] at hop
    subst hop
    simp only [StableHlo.reshape_writes, Finset.mem_singleton]
    exact StableHlo.devRef_ne_of_ne hb

/-- The result is the flattening of the region's output array. -/
theorem after1_v2 (c : Dev nD) :
    StableHlo.after hostOps1 (V1 m dats c) (Proc.devRef .tc main_v2)
      = shapeCast S8192x2048 ((dats 0 c).arrAt 4 cfg0.N) shapeCasts_S8x1024x2048_S8192x2048 := by
  rw [← V1_v1 m dats c]
  show StableHlo.after hostOps1 (V1 m dats c) (Proc.devRef .tc main_v2) = _
  after_results
  rfl

/-- The five windows' arrays at contents `A`, one by one, each at its window's share. -/
theorem arrays_five (c : Dev nD) (hq0 : (dats 0 c).q 0 = fullShare) (hq1 : (dats 0 c).q 1 = fullShare.left)
    (hq2 : (dats 0 c).q 2 = fullShare.right) (hq3 : (dats 0 c).q 3 = fullShare)
    (A : (w : Fin cfg0.W) → Buf (Elt F) ((cfg0.win w).arr.view.loc (c : Thread nD τ)))
    {a0 : Buf (Elt F) ((c : Thread nD τ).loc main_v0)} {a1 a2 : Buf (Elt F) ((c : Thread nD τ).loc main_arg1)}
    {a3 : Buf (Elt F) ((c : Thread nD τ).loc main_arg2)} {a4 : Buf (Elt F) ((c : Thread nD τ).loc main_v1)}
    (h0 : A 0 = a0) (h1 : A 1 = a1) (h2 : A 2 = a2) (h3 : A 3 = a3) (h4 : A 4 = a4) :
    ((dats 0 c).arrays A : sProp 𝕄)
      = iprop((((c : Thread nD τ).loc main_v0) ↦{fullShare} a0)
          ∗ (((c : Thread nD τ).loc main_arg1) ↦{fullShare.left} a1)
          ∗ (((c : Thread nD τ).loc main_arg1) ↦{fullShare.right} a2)
          ∗ (((c : Thread nD τ).loc main_arg2) ↦{fullShare} a3)
          ∗ (((c : Thread nD τ).loc main_v1) ↦{fullShare} a4)) := by
  subst h0 h1 h2 h3 h4
  unfold Dat.arrays
  rw [bigSep_W0]
  rw [(arr_whole0 0).set_eq_univ, (arr_whole0 1).set_eq_univ, (arr_whole0 3).set_eq_univ, (arr_whole0 4).set_eq_univ]
  rw [show (dats 0 c).share 0 = (dats 0 c).q 0 from rfl, show (dats 0 c).share 1 = (dats 0 c).q 1 from rfl,
    show (dats 0 c).share 2 = (dats 0 c).q 2 from rfl, show (dats 0 c).share 3 = (dats 0 c).q 3 from rfl,
    show (dats 0 c).share 4 = fullShare from rfl, hq0, hq1, hq2, hq3]

variable (hA : ∀ c w, (dats 0 c).A w = V m c (Pipeline.arrRef spec0 w))
  (hq0 : ∀ c, (dats 0 c).q 0 = fullShare) (hq1 : ∀ c, (dats 0 c).q 1 = fullShare.left)
  (hq2 : ∀ c, (dats 0 c).q 2 = fullShare.right) (hq3 : ∀ c, (dats 0 c).q 3 = fullShare)

include hA hq0 hq1 hq2 hq3 in
/-- ENTRY: the six buffers as the first reshape left them are the windows' arrays at the proof data's entry contents
    — the gate-and-up weights' full share split, a half to each of the two windows on them — beside the token
    matrix and the result's buffer, which bypass the region. -/
theorem entry_arrays (c : Dev nD) :
    (StableHlo.held (c : Thread nD τ) (Pipeline.ucRefs τ sig) (V0 m c) : sProp 𝕄)
      ⊢ iprop((dats 0 c).arrays ((dats 0 c).arrAt · 0)
          ∗ (((c : Thread nD τ).loc main_arg0) ↦{fullShare} V m c main_arg0)
          ∗ (((c : Thread nD τ).loc main_v2) ↦{fullShare} V m c main_v2)) := by
  rw [held_six, arrays_five dats c (hq0 c) (hq1 c) (hq2 c) (hq3 c) ((dats 0 c).arrAt · 0)
    (hA c 0) (hA c 1) (hA c 2) (hA c 3) (hA c 4)]
  iintro ⟨H0, H1, H2, H3, H4, H5⟩
  ihave H1 := (pointsTo_share (PosShare.mem_left_op_right fullShare)).1 $$ H1
  icases H1 with ⟨H1l, H1r⟩
  isplitr [H0 H5]
  · isplitl [H3]; · iexact H3
    isplitl [H1l]; · iexact H1l
    isplitl [H1r]; · iexact H1r
    isplitl [H2]; · iexact H2
    iexact H4
  · isplitl [H0]; · iexact H0
    iexact H5

include hA hq0 hq1 hq2 hq3 in
/-- EXIT: the input windows' arrays come back as they went in, the two halves of the gate-and-up weights join to the
    full share, and the output array holds what the write-backs left: the six buffers at the exit valuation. -/
theorem exit_arrays (c : Dev nD) :
    iprop((dats 0 c).arrays ((dats 0 c).arrAt · cfg0.N)
        ∗ (((c : Thread nD τ).loc main_arg0) ↦{fullShare} V m c main_arg0)
        ∗ (((c : Thread nD τ).loc main_v2) ↦{fullShare} V m c main_v2))
      ⊢ (StableHlo.held (c : Thread nD τ) (Pipeline.ucRefs τ sig) (V1 m dats c) : sProp 𝕄) := by
  rw [held_six, arrays_five dats c (hq0 c) (hq1 c) (hq2 c) (hq3 c) ((dats 0 c).arrAt · cfg0.N)
    (((dats 0 c).arrAt_in 0 rfl _).trans (hA c 0)) (((dats 0 c).arrAt_in 1 rfl _).trans (hA c 1))
    (((dats 0 c).arrAt_in 2 rfl _).trans (hA c 2)) (((dats 0 c).arrAt_in 3 rfl _).trans (hA c 3)) rfl,
    V1_of_ne m dats c main_arg0 (by decide), V1_of_ne m dats c main_arg1 (by decide), V1_of_ne m dats c main_arg2 (by decide),
    V1_of_ne m dats c main_v0 (by decide), V1_of_ne m dats c main_v2 (by decide), V1_v1]
  iintro ⟨⟨H3, H1l, H1r, H2, H4⟩, H0, H5⟩
  ihave H1 := (pointsTo_share (PosShare.mem_left_op_right fullShare)).2 $$ [H1l H1r]
  · isplitl [H1l] <;> iassumption
  isplitl [H0]; · iexact H0
  isplitl [H1]; · iexact H1
  isplitl [H2]; · iexact H2
  isplitl [H3]; · iexact H3
  isplitl [H4]; · iexact H4
  iexact H5

end Data

/-! ## The program's segments -/

/-- No variant: the host operations and the region run under no bound. -/
abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- THE FIRST HOST SEGMENT: the reshape of the token matrix, over the six buffers at their launch contents. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (fun c b => m (c, b)) R0

section Data

variable (dats : (p : Fin 1) → (c : Dev nD) → Dat τ (Elt F) Unit ℕ (UR sig nD τ) ℕ (cfgs p) c)

/-- THE LAST HOST SEGMENT: the reshape of the region's output, over the six buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (V1 m dats) R

variable (hA : ∀ c w, (dats 0 c).A w = V m c (Pipeline.arrRef spec0 w))
  (hq0 : ∀ c, (dats 0 c).q 0 = fullShare) (hq1 : ∀ c, (dats 0 c).q 1 = fullShare.left)
  (hq2 : ∀ c, (dats 0 c).q 2 = fullShare.right) (hq3 : ∀ c, (dats 0 c).q 3 = fullShare)
  (howed : ∀ c t, (dats 0 c).owed t = 0)
  (hbody : ∀ c, BodyObligation (dats 0 c) (defs₀ (F := F)) Variants.none () Set.univ)
  (hin : ∀ c, Pipeline.ΦA spec0 c ⊢ (dats 0 c).Φ 0)
  (hout : ∀ c, (dats 0 c).Φ (Fin.last cfg0.N) ⊢ Pipeline.ΦA spec0 c)

set_option backward.isDefEq.respectTransparency.types false in
/-- THE REGION: entered from what the first reshape left — the windows' arrays into the pipeline, the generator
    register into the invariant, the token matrix and the result's buffer bypassing —, left with the six buffers at
    the exit valuation. -/
def reg0 : Pipeline.RegionSeg (pcfgs (F := F)) adm dats () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V0 m c) ∗ R0 c)
  post c := iprop(StableHlo.held (c : Thread nD τ) (Pipeline.ucRefs τ sig) (V1 m dats c) ∗ R c)
  X c := iprop(∃ r, prngReg c r)
  Y c := iprop(∃ r, prngReg c r)
  Z c := iprop((((c : Thread nD τ).loc main_arg0) ↦{fullShare} V m c main_arg0)
    ∗ (((c : Thread nD τ).loc main_v2) ↦{fullShare} V m c main_v2))
  hentry c := by
    iintro ⟨⟨Hh, Hp, HO⟩, -, -⟩
    ihave H := (entry_arrays m dats hA hq0 hq1 hq2 hq3 c) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      iexists ∅; isplitr; · ipureintro; rw [Finset.coe_empty]; exact Set.empty_subset _
      iexact HO
    isplitl [Hp]; · iexact Hp
    iexact Hz
  hin c := (show _ ⊢ Pipeline.ΦA spec0 c from by
    unfold Pipeline.ΦA; iintro ⟨Hp, -, Hr⟩
    isplitl [Hr] <;> iassumption).trans (hin c)
  hout c := (hout c).trans (by
    rw [Pipeline.ownSems0_none]; unfold Pipeline.ΦA
    iintro ⟨Hr, Hp⟩
    isplitl [Hp]; · iexact Hp
    isplitr; · iempintro
    iexact Hr)
  hexit c := by
    unfold Pipeline.Dat.owesAt Pipeline.owesWithin
    rw [howed c (Fin.last _)]
    iintro ⟨Ha, ⟨%W, -, HO⟩, Hp, Hz⟩
    imodintro
    isplitl [Ha Hz]
    · iapply (exit_arrays m dats hA hq0 hq1 hq2 hq3 c)
      isplitl [Ha]; · iexact Ha
      iexact Hz
    isplitl [Hp]; · iexact Hp
    iexists W; iexact HO

end Data

/-! ## The run -/

omit [FloatOps F] in
/-- An unscoped TensorCore reference is one of the six buffers. -/
theorem mem_uc (b : Ref sig .tc) (hb : (Proc.devRef (τ := τ) .tc b).isScoped = false) :
    Proc.devRef (τ := τ) .tc b ∈ Pipeline.ucRefs τ sig :=
  Finset.mem_filter.mpr ⟨StableHlo.devRef_mem_tcRefs b, fun h => Bool.false_ne_true (hb.symm.trans h)⟩

/-- What the last reshape leaves for the end: the six buffers after it, and the generator register. -/
abbrev Tn (dats : (p : Fin 1) → (c : Dev nD) → Dat τ (Elt F) Unit ℕ (UR sig nD τ) ℕ (cfgs p) c) (c : Dev nD) : sProp 𝕄 :=
  iprop(StableHlo.held (c : Thread nD τ) (Pipeline.ucRefs τ sig) (StableHlo.after hostOps1 (V1 m dats c)) ∗ ∃ r, prngReg c r)

set_option backward.isDefEq.respectTransparency.types false in
/-- THE RUN, for any proof data: the arrays at the region's entry are `V`'s; the token slab and the down weights
    are held whole, the gate-and-up weights half by each of the two windows on them; nothing is owed; the body
    obligation holds; the region invariant starts from and returns to the scratch buffer at anything beside the
    generator register. Every weakly fair execution terminates, the three arguments end as launched, and the
    result is the flattening of what the write-backs left in the region's output array. -/
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare) (hq1 : ∀ c, (dats 0 c).q 1 = fullShare.left)
    (hq2 : ∀ c, (dats 0 c).q 2 = fullShare.right) (hq3 : ∀ c, (dats 0 c).q 3 = fullShare)
    (howed : ∀ c t, (dats 0 c).owed t = 0)
    (hbody : ∀ c, BodyObligation (dats 0 c) (defs₀ (F := F)) Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v2)
          = shapeCast S8192x2048 ((dats 0 c).arrAt 4 cfg0.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm dats () cellOf_inj emb₁ defs₀ 𝒱₀ L lv m ρ main
    [.host (seg0 m), .region (reg0 m dats hA hq0 hq1 hq2 hq3 howed hbody hin hout), .host (seg1 m dats)]
    (fun c Q => by
      rw [main_segs adm dats () 𝒱₀ L lv (seg0 m) (seg1 m dats) (reg0 m dats hA hq0 hq1 hq2 hq3 howed hbody hin hout) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R0 c))
    (Tₙ := Tn m dats)
    (hch := ⟨fun _ => .rfl, fun _ => .rfl, fun _ => .rfl, fun c => by
      refine (show iprop(StableHlo.held (c : Thread nD τ) (Pipeline.ucRefs τ sig) (StableHlo.after hostOps1 (V1 m dats c)) ∗ R c)
        ⊢ iprop(Tn m dats c ∗ ∃ W, owes (c : Thread nD τ) (0 : CellTallies nD τ sig Unit) W) from ?_)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b))
        = StableHlo.held (c : Thread nD τ) (Pipeline.ucRefs τ sig) (fun b => m (c, b)) from Pipeline.unscopedBufs_held c (fun b => m (c, b))]
      iintro ⟨⟨Hh, -, HO, -, Hp, -⟩, -⟩
      imodintro
      isplitl [Hh]; · iexact Hh
      isplitl [Hp]; · iexists _; iexact Hp
      iexact HO)
    (QY := fun c s =>
      s.mem ((c.tc : Thread nD τ).loc main_v2)
          = shapeCast S8192x2048 ((dats 0 c).arrAt 4 cfg0.N) shapeCasts_S8x1024x2048_S8192x2048
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      dsimp only [Tn]; unfold StableHlo.held
      iintro ⟨⟨Hh, -⟩, HSI⟩
      ihave Hr := (pointsTo_read_all (Pipeline.ucRefs τ sig) (fun b => ((c : Thread nD τ).1, b))
        (StableHlo.after hostOps1 (V1 m dats c)) s') $$ [Hh HSI]
      · isplitl [Hh] <;> iassumption
      icases Hr with ⟨%h, HSI⟩
      imodintro
      isplitr
      · ipureintro
        exact ⟨(h _ (mem_uc main_v2 rfl)).trans (after1_v2 m dats c),
          (h _ (mem_uc main_arg0 rfl)).trans ((after1_of_ne m dats c main_arg0 (by decide)).trans
            ((V1_of_ne m dats c main_arg0 (by decide)).trans (V_of_ne m c main_arg0 (by decide)))),
          (h _ (mem_uc main_arg1 rfl)).trans ((after1_of_ne m dats c main_arg1 (by decide)).trans
            ((V1_of_ne m dats c main_arg1 (by decide)).trans (V_of_ne m c main_arg1 (by decide)))),
          (h _ (mem_uc main_arg2 rfl)).trans ((after1_of_ne m dats c main_arg2 (by decide)).trans
            ((V1_of_ne m dats c main_arg2 (by decide)).trans (V_of_ne m c main_arg2 (by decide))))⟩
      iexact HSI)
    (hQ := fun _ h => h)

end Cert.KernelIdeal.Hand

end
-- ==== Proof.KI.Run.lean ====
/-
  The run of the idealized kernel program: the launch for any proof data, at the frame's proof data. Every
  weakly fair execution terminates; the arguments end as launched; the result is the flattening of what the
  write-backs left in the region's output array.
-/
import proofs.«143651_j38036230373627_1_alg».proof.Proof.KI.Frame
import proofs.«143651_j38036230373627_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with the result named through the proof data's output array. -/
theorem run_main : θ_run defs (onTc (τ := τ) (main (F := F))) ⟨m, fun _ => 0, ρ⟩ (fun r => ∀ c : Dev nD,
      r.2.mem ((c.tc : Thread nD τ).loc main_v2)
          = shapeCast S8192x2048 ((dats m 0 c).arrAt 4 cfg0.N) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_of m ρ (dats m) (A_eq m) (fun _ => rfl) (fun _ => rfl) (fun _ => rfl) (fun _ => rfl) (fun _ _ => rfl)
    (fun c => body_obligation m c) (hin m) (hout m)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.KI.Pieces.lean ====
/-
  What the three cases leave, as the body's payload terms over the contents it loaded: at a middle or last chunk
  the accumulator ends at the stored sum over what it held; at a first chunk at the stored sum over the zeros just
  written; and at the last chunk the output block ends at the accumulator's new contents with a leading unit axis.
-/
import proofs.«143651_j38036230373627_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl

/-- A middle chunk: the accumulator over what it held. -/
theorem sout0_B_eq (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : ¬cond0_1 i)
    (x0 : Vec F S1x128x2048 .f32) (x1 : Vec F S1x2048x512 .f32) (x2 : Vec F S1x2048x512 .f32) (x3 : Vec F S1x512x2048 .f32) (xs0 : Vec F S128x2048 .f32) :
    sout0_B c i arg3 harg3 arg4 harg4 arg5 harg5 arg6 harg6 arg7 harg7 arg8 harg8 hc0 hc1 x0 x1 x2 x3 xs0 = k0_pay2 x0 x1 x2 x3 xs0 := by
  unfold sout0_B
  rw [View.read_writes_eq_canon _ _ _ (scover0_B c i arg3 harg3 arg4 harg4 arg5 harg5 arg6 harg6 arg7 harg7 arg8 harg8 hc0 hc1 x0 x1 x2 x3 xs0)]
  unfold kernelRun0_B; dsimp only; sl_unfold_words
  rw [View.canon_unit_zero hz2]
  simp only [View.readAt_eq_ld, harg3.read_unread, harg4.read_unread, harg5.read_unread, harg6.read_unread, harg8.read_unread, View.ld_unit_zero (S := S1x128x2048) hz3, View.ld_unit_zero (S := S1x2048x512) hz3, View.ld_unit_zero (S := S1x512x2048) hz3, View.ld_unit_zero (S := S128x2048) hz2]

/-- The last chunk: the accumulator over what it held, -/
theorem sout0_C_eq (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i)
    (x0 : Vec F S1x128x2048 .f32) (x1 : Vec F S1x2048x512 .f32) (x2 : Vec F S1x2048x512 .f32) (x3 : Vec F S1x512x2048 .f32) (xs0 : Vec F S128x2048 .f32) :
    sout0_C c i arg3 harg3 arg4 harg4 arg5 harg5 arg6 harg6 arg7 harg7 arg8 harg8 hc0 hc1 x0 x1 x2 x3 xs0 = k0_pay2 x0 x1 x2 x3 xs0 := by
  unfold sout0_C
  rw [View.read_writes_eq_canon _ _ _ (scover0_C c i arg3 harg3 arg4 harg4 arg5 harg5 arg6 harg6 arg7 harg7 arg8 harg8 hc0 hc1 x0 x1 x2 x3 xs0)]
  unfold kernelRun0_C; dsimp only; sl_unfold_words
  rw [View.canon_unit_zero hz2]
  simp only [View.readAt_eq_ld, harg3.read_unread, harg4.read_unread, harg5.read_unread, harg6.read_unread, harg8.read_unread, View.ld_unit_zero (S := S1x128x2048) hz3, View.ld_unit_zero (S := S1x2048x512) hz3, View.ld_unit_zero (S := S1x512x2048) hz3, View.ld_unit_zero (S := S128x2048) hz2]

/-- and the output block a copy of it. -/
theorem out0_C_4_eq (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i)
    (x0 : Vec F S1x128x2048 .f32) (x1 : Vec F S1x2048x512 .f32) (x2 : Vec F S1x2048x512 .f32) (x3 : Vec F S1x512x2048 .f32) (xs0 : Vec F S128x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C; dsimp only; sl_unfold_words
  rw [View.canon_unit_zero hz3]
  simp only [View.readAt_eq_ld, harg3.read_unread, harg4.read_unread, harg5.read_unread, harg6.read_unread, harg8.read_unread, View.ld_unit_zero (S := S1x128x2048) hz3, View.ld_unit_zero (S := S1x2048x512) hz3, View.ld_unit_zero (S := S1x512x2048) hz3, View.ld_unit_zero (S := S128x2048) hz2, View.readCov_unit_zero (S := S128x2048) _ hz2]

/-- A first chunk: the accumulator over the zeros just written. -/
theorem sout0_A_eq (c : Dev nD) (i : grid0.Coords) (arg3 : Memref sig .tc .vmem S1x128x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x128x2048 .f32) (harg7 : arg7.IsWhole) (arg8 : Memref sig .tc .vmem S128x2048 .f32) (harg8 : arg8.IsWhole) (hc0 : cond0_0 i) (hc1 : ¬cond0_1 i)
    (x0 : Vec F S1x128x2048 .f32) (x1 : Vec F S1x2048x512 .f32) (x2 : Vec F S1x2048x512 .f32) (x3 : Vec F S1x512x2048 .f32) :
    sout0_A c i arg3 harg3 arg4 harg4 arg5 harg5 arg6 harg6 arg7 harg7 arg8 harg8 hc0 hc1 x0 x1 x2 x3 = k0_pay2 x0 x1 x2 x3 (k0_pay1 (F := F)) := by
  unfold sout0_A
  rw [View.read_writes_eq_canon _ _ _ (scover0_A c i arg3 harg3 arg4 harg4 arg5 harg5 arg6 harg6 arg7 harg7 arg8 harg8 hc0 hc1 x0 x1 x2 x3)]
  unfold kernelRun0_A; dsimp only; sl_unfold_words
  rw [View.canon_cons_unit_zero (S := S128x2048) hz2]
  simp only [View.readAt_eq_ld, harg3.read_unread, harg4.read_unread, harg5.read_unread, harg6.read_unread, View.ld_unit_zero (S := S1x128x2048) hz3, View.ld_unit_zero (S := S1x2048x512) hz3, View.ld_unit_zero (S := S1x512x2048) hz3, View.ld_unit_zero (S := S128x2048) hz2, View.readCov_unit_zero (S := S128x2048) _ hz2]

end Cert.KernelIdeal.Hand

end
-- ==== Proof.KI.PayIdx.lean ====
/-
  The body's arithmetic read at one element, on the extended reals. With a token tile `x0` (128 × 2048), a gate
  chunk `x1` and an up chunk `x2` of the weights (2048 × 512 each), a chunk `x3` of the down weights (512 × 2048)
  and the accumulator `acc` (128 × 2048), the value the body stores back into the accumulator is, at row `r` and
  column `h`,   acc[r, h] + Σ_j (up_j · (gate_j · σ(gate_j))) · x3[j, h],   gate_j = Σ_k x0[r, k] · x1[k, j],
  up_j = Σ_k x0[r, k] · x2[k, j]: changes of float format are the identity, a matrix product into a zero
  accumulator is the plain sum, and the leading unit axis of a loaded block is dropped by the shape casts.
-/
import proofs.«143651_j38036230373627_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The gate (or up) projection of row `r` of a token tile against column `j` of a weight chunk. -/
def proj (x0 : Vec Ideal S1x128x2048 .f32) (w : Vec Ideal S1x2048x512 .f32) (r : Fin 128) (j : Fin 512) : EReal :=
  ∑ k : Fin 2048, x0 (ix3 (0 : Fin 1) r k) * w (ix3 (0 : Fin 1) k j)

/-- One chunk's share of a result entry: the gated activation row against a column of the down chunk. -/
def chunkTerm (x0 : Vec Ideal S1x128x2048 .f32) (x1 x2 : Vec Ideal S1x2048x512 .f32) (x3 : Vec Ideal S1x512x2048 .f32)
    (r : Fin 128) (h : Fin 2048) : EReal :=
  ∑ j : Fin 512, (proj x0 x2 r j * (proj x0 x1 r j * Ideal.logistic (proj x0 x1 r j))) * x3 (ix3 (0 : Fin 1) j h)

/-! ## The two matrix products' operand indices

  For each of the two product records (no batch axis, left axis 1 contracted against right axis 0) the operand
  indices at output index `i` and contraction position `q` are (i₀, q) on the left and (q, i₁) on the right. -/

theorem lhs_gu_0 (i : S128x512.Idx) (q : dot_S128x2048_S2048x512_S128x512_1_0_0_1_n_n.contr.Idx) :
    (dot_S128x2048_S2048x512_S128x512_1_0_0_1_n_n.lhsIdx i q 0).val = (i 0).val := by
  unfold DotDims.lhsIdx
  rw [dif_neg (show ¬(0 : Fin S128x2048.rank) ∈ dot_S128x2048_S2048x512_S128x512_1_0_0_1_n_n.lhsBatch by decide), dif_pos (show (0 : Fin S128x2048.rank) ∈ dot_S128x2048_S2048x512_S128x512_1_0_0_1_n_n.lhsNonContracting by decide)]
  rfl
theorem lhs_gu_1 (i : S128x512.Idx) (q : dot_S128x2048_S2048x512_S128x512_1_0_0_1_n_n.contr.Idx) :
    (dot_S128x2048_S2048x512_S128x512_1_0_0_1_n_n.lhsIdx i q 1).val = (q ⟨0, by decide⟩).val :=
  dot_S128x2048_S2048x512_S128x512_1_0_0_1_n_n.lhsIdx_val_of_single rfl i q
theorem rhs_gu_0 (i : S128x512.Idx) (q : dot_S128x2048_S2048x512_S128x512_1_0_0_1_n_n.contr.Idx) :
    (dot_S128x2048_S2048x512_S128x512_1_0_0_1_n_n.rhsIdx i q 0).val = (q ⟨0, by decide⟩).val :=
  dot_S128x2048_S2048x512_S128x512_1_0_0_1_n_n.rhsIdx_val_of_single rfl i q
theorem rhs_gu_1 (i : S128x512.Idx) (q : dot_S128x2048_S2048x512_S128x512_1_0_0_1_n_n.contr.Idx) :
    (dot_S128x2048_S2048x512_S128x512_1_0_0_1_n_n.rhsIdx i q 1).val = (i 1).val := by
  unfold DotDims.rhsIdx
  rw [dif_neg (show ¬(1 : Fin S2048x512.rank) ∈ dot_S128x2048_S2048x512_S128x512_1_0_0_1_n_n.rhsBatch by decide), dif_pos (show (1 : Fin S2048x512.rank) ∈ dot_S128x2048_S2048x512_S128x512_1_0_0_1_n_n.rhsNonContracting by decide)]
  rfl

theorem lhs_dn_0 (i : S128x2048.Idx) (q : dot_S128x512_S512x2048_S128x2048_1_0_0_1_n_n.contr.Idx) :
    (dot_S128x512_S512x2048_S128x2048_1_0_0_1_n_n.lhsIdx i q 0).val = (i 0).val := by
  unfold DotDims.lhsIdx
  rw [dif_neg (show ¬(0 : Fin S128x512.rank) ∈ dot_S128x512_S512x2048_S128x2048_1_0_0_1_n_n.lhsBatch by decide), dif_pos (show (0 : Fin S128x512.rank) ∈ dot_S128x512_S512x2048_S128x2048_1_0_0_1_n_n.lhsNonContracting by decide)]
  rfl
theorem lhs_dn_1 (i : S128x2048.Idx) (q : dot_S128x512_S512x2048_S128x2048_1_0_0_1_n_n.contr.Idx) :
    (dot_S128x512_S512x2048_S128x2048_1_0_0_1_n_n.lhsIdx i q 1).val = (q ⟨0, by decide⟩).val :=
  dot_S128x512_S512x2048_S128x2048_1_0_0_1_n_n.lhsIdx_val_of_single rfl i q
theorem rhs_dn_0 (i : S128x2048.Idx) (q : dot_S128x512_S512x2048_S128x2048_1_0_0_1_n_n.contr.Idx) :
    (dot_S128x512_S512x2048_S128x2048_1_0_0_1_n_n.rhsIdx i q 0).val = (q ⟨0, by decide⟩).val :=
  dot_S128x512_S512x2048_S128x2048_1_0_0_1_n_n.rhsIdx_val_of_single rfl i q
theorem rhs_dn_1 (i : S128x2048.Idx) (q : dot_S128x512_S512x2048_S128x2048_1_0_0_1_n_n.contr.Idx) :
    (dot_S128x512_S512x2048_S128x2048_1_0_0_1_n_n.rhsIdx i q 1).val = (i 1).val := by
  unfold DotDims.rhsIdx
  rw [dif_neg (show ¬(1 : Fin S512x2048.rank) ∈ dot_S128x512_S512x2048_S128x2048_1_0_0_1_n_n.rhsBatch by decide), dif_pos (show (1 : Fin S512x2048.rank) ∈ dot_S128x512_S512x2048_S128x2048_1_0_0_1_n_n.rhsNonContracting by decide)]
  rfl

/-! ## The matrix products into a zero accumulator, at an index -/

/-- A 128 × 2048 by 2048 × 512 product into the zero accumulator, at row `r` and column `j`. -/
theorem matmul_gu_apply (a : FVec Ideal S128x2048 .bf16) (b : FVec Ideal S2048x512 .bf16) (r : Fin 128) (j : Fin 512) :
    matmul (F := Ideal) dot_S128x2048_S2048x512_S128x512_1_0_0_1_n_n none a b (constant (F := Ideal) S128x512 .f32 0x00000000#32) (ix2 r j)
      = ∑ k : Fin 2048, a (ix2 r k) * b (ix2 k j) := by
  simp only [matmul]
  rw [Ideal.matmul_constant_zero_apply, ← Equiv.sum_comp (contrEquiv1 dot_S128x2048_S2048x512_S128x512_1_0_0_1_n_n 2048 rfl rfl).symm]
  refine Finset.sum_congr rfl fun k _ => ?_
  have hk := contrEquiv1_symm_val dot_S128x2048_S2048x512_S128x512_1_0_0_1_n_n 2048 rfl rfl k
  have el : dot_S128x2048_S2048x512_S128x512_1_0_0_1_n_n.lhsIdx (ix2 r j) ((contrEquiv1 dot_S128x2048_S2048x512_S128x512_1_0_0_1_n_n 2048 rfl rfl).symm k) = ix2 r k := funext fun a => Fin.ext (by
    match a with
    | ⟨0, _⟩ => exact lhs_gu_0 _ _
    | ⟨1, _⟩ => exact (lhs_gu_1 _ _).trans hk)
  have er : dot_S128x2048_S2048x512_S128x512_1_0_0_1_n_n.rhsIdx (ix2 r j) ((contrEquiv1 dot_S128x2048_S2048x512_S128x512_1_0_0_1_n_n 2048 rfl rfl).symm k) = ix2 k j := funext fun a => Fin.ext (by
    match a with
    | ⟨0, _⟩ => exact (rhs_gu_0 _ _).trans hk
    | ⟨1, _⟩ => exact rhs_gu_1 _ _)
  rw [el, er]

/-- A 128 × 512 by 512 × 2048 product into the zero accumulator, at row `r` and column `h`. -/
theorem matmul_dn_apply (a : FVec Ideal S128x512 .bf16) (b : FVec Ideal S512x2048 .bf16) (r : Fin 128) (h : Fin 2048) :
    matmul (F := Ideal) dot_S128x512_S512x2048_S128x2048_1_0_0_1_n_n none a b (constant (F := Ideal) S128x2048 .f32 0x00000000#32) (ix2 r h)
      = ∑ j : Fin 512, a (ix2 r j) * b (ix2 j h) := by
  simp only [matmul]
  rw [Ideal.matmul_constant_zero_apply, ← Equiv.sum_comp (contrEquiv1 dot_S128x512_S512x2048_S128x2048_1_0_0_1_n_n 512 rfl rfl).symm]
  refine Finset.sum_congr rfl fun k _ => ?_
  have hk := contrEquiv1_symm_val dot_S128x512_S512x2048_S128x2048_1_0_0_1_n_n 512 rfl rfl k
  have el : dot_S128x512_S512x2048_S128x2048_1_0_0_1_n_n.lhsIdx (ix2 r h) ((contrEquiv1 dot_S128x512_S512x2048_S128x2048_1_0_0_1_n_n 512 rfl rfl).symm k) = ix2 r k := funext fun a => Fin.ext (by
    match a with
    | ⟨0, _⟩ => exact lhs_dn_0 _ _
    | ⟨1, _⟩ => exact (lhs_dn_1 _ _).trans hk)
  have er : dot_S128x512_S512x2048_S128x2048_1_0_0_1_n_n.rhsIdx (ix2 r h) ((contrEquiv1 dot_S128x512_S512x2048_S128x2048_1_0_0_1_n_n 512 rfl rfl).symm k) = ix2 k h := funext fun a => Fin.ext (by
    match a with
    | ⟨0, _⟩ => exact (rhs_dn_0 _ _).trans hk
    | ⟨1, _⟩ => exact rhs_dn_1 _ _)
  rw [el, er]

/-! ## The loaded blocks, cast to matrices and narrowed, at an index -/

/-- A loaded block with its leading unit axis dropped and its format narrowed reads the block's own element. -/
theorem narrowed_apply {a b : ℕ} (x : Vec Ideal ⟨3, ![1, a, b]⟩ .f32)
    (hc : (⟨3, ![1, a, b]⟩ : Shape).ShapeCasts ⟨2, ![a, b]⟩) (hb : FTy.bits .bf16 < FTy.bits .f32) (i : Fin a) (j : Fin b) :
    (truncf .bf16 (shapeCast ⟨2, ![a, b]⟩ x hc : FVec Ideal ⟨2, ![a, b]⟩ .f32) hb : FVec Ideal ⟨2, ![a, b]⟩ .bf16) (ix2 i j)
      = x (ix3 (0 : Fin 1) i j) :=
  shapeCast_1ab_ab_apply x hc i j

/-- The gate (or up) product of the payload at an index is the projection. -/
theorem proj_apply (x0 : Vec Ideal S1x128x2048 .f32) (w : Vec Ideal S1x2048x512 .f32) (r : Fin 128) (j : Fin 512) :
    matmul (F := Ideal) dot_S128x2048_S2048x512_S128x512_1_0_0_1_n_n none
        (truncf .bf16 (shapeCast S128x2048 x0 shapeCasts_S1x128x2048_S128x2048 : FVec Ideal S128x2048 .f32) bitsLt_bf16_f32)
        (truncf .bf16 (shapeCast S2048x512 w shapeCasts_S1x2048x512_S2048x512 : FVec Ideal S2048x512 .f32) bitsLt_bf16_f32)
        (constant (F := Ideal) S128x512 .f32 0x00000000#32) (ix2 r j)
      = proj x0 w r j := by
  refine (matmul_gu_apply _ _ r j).trans ?_
  unfold proj
  exact Finset.sum_congr rfl fun k _ =>
    congrArg₂ (· * ·) (narrowed_apply x0 shapeCasts_S1x128x2048_S128x2048 bitsLt_bf16_f32 r k)
      (narrowed_apply w shapeCasts_S1x2048x512_S2048x512 bitsLt_bf16_f32 k j)

/-- The reset value is zero everywhere. -/
theorem pay1_apply (y : S128x2048.Idx) : k0_pay1 (F := Ideal) y = 0 := by
  unfold k0_pay1
  exact (congrFun (shapeCast_self _ shapeCasts_S128x2048_S128x2048) y).trans Ideal.ofBits_zero_f32

/-- The value stored into the accumulator: what it held plus the chunk's share. -/
theorem pay2_apply (x0 : Vec Ideal S1x128x2048 .f32) (x1 x2 : Vec Ideal S1x2048x512 .f32) (x3 : Vec Ideal S1x512x2048 .f32)
    (acc : Vec Ideal S128x2048 .f32) (r : Fin 128) (h : Fin 2048) :
    k0_pay2 (F := Ideal) x0 x1 x2 x3 acc (ix2 r h) = acc (ix2 r h) + chunkTerm x0 x1 x2 x3 r h := by
  unfold k0_pay2
  -- the outer cast keeps the shape; the sum is read elementwise
  refine (congrFun (shapeCast_self _ shapeCasts_S128x2048_S128x2048) (ix2 r h)).trans ?_
  refine congrArg (acc (ix2 r h) + ·) ?_
  -- the last product is the sum over the chunk's 512 columns
  refine (matmul_dn_apply _ _ r h).trans ?_
  unfold chunkTerm
  refine Finset.sum_congr rfl fun j _ => ?_
  -- the right factor is the down chunk's element, the left the gated activation of the two projections
  refine congrArg₂ (· * ·) ?_ (narrowed_apply x3 shapeCasts_S1x512x2048_S512x2048 bitsLt_bf16_f32 j h)
  exact congrArg₂ (· * ·) (proj_apply x0 x2 r j)
    (congrArg (fun g : EReal => g * Ideal.logistic g) (proj_apply x0 x1 r j))

/-- The value stored into the output block is the accumulator with a leading unit axis. -/
theorem pay3_apply (v30 : Vec Ideal S128x2048 .f32) (r : Fin 128) (h : Fin 2048) :
    k0_pay3 (F := Ideal) v30 (ix3 (0 : Fin 1) r h) = v30 (ix2 r h) := by
  unfold k0_pay3
  exact shapeCast_ab_1ab_apply v30 shapeCasts_S128x2048_S1x128x2048 (0 : Fin 1) r h

end Cert.KernelIdeal.Hand

end
-- ==== Proof.Spec.lean ====
/-
  The mathematics both programs compute, stated once over plain index types and the extended reals.

  Eight experts each own 1024 consecutive token rows of the token matrix `x` (row `e * 1024 + r`), a weight slab
  `W e` of 2048 × 8192 whose columns are laid out gate half then up half, and a slab `D e` of 4096 × 2048.
  For a token row and an intermediate column `j`:  gate = Σ_h x · W[:, j],  up = Σ_h x · W[:, 4096 + j],
  act = up · (gate · σ(gate))  with σ the logistic function, and the result entry is Σ_j act_j · D[j, ·].
  The kernel walks the 4096 intermediate columns in eight chunks of 512 and adds each chunk's partial product to
  a running sum that starts at zero; the last section says that the running sum after the eighth chunk is the
  whole contraction (regrouping a finite sum: addition on the extended reals is commutative and associative).
-/
import Idealize.ShloMosaic.PureOps.Ideal
import Idealize.ShloMosaic.Lib.ValueIdx
import Mathlib.Algebra.BigOperators.Group.Finset.Basic
import Mathlib.Data.Fintype.BigOperators

noncomputable section

open scoped BigOperators

namespace Cert.Experts

open Idealize.ShloMosaic Idealize.ShloMosaic.ValueIdx

/-- The token matrix, the gate-and-up weights, the down weights, and the per-expert view of the result. -/
abbrev SX : Shape := ⟨2, ![8192, 2048]⟩
abbrev SW : Shape := ⟨3, ![8, 2048, 8192]⟩
abbrev SD : Shape := ⟨3, ![8, 4096, 2048]⟩
abbrev SO : Shape := ⟨3, ![8, 1024, 2048]⟩

/-- Expert `e`'s `r`-th token is row `e * 1024 + r` of the token matrix. -/
def tok (e : Fin 8) (r : Fin 1024) : Fin 8192 := ⟨e.val * 1024 + r.val, by omega⟩
/-- Intermediate column `j`'s gate weights are column `j` of the slab, -/
def colG (j : Fin 4096) : Fin 8192 := ⟨j.val, by omega⟩
/-- and its up weights column `4096 + j`. -/
def colU (j : Fin 4096) : Fin 8192 := ⟨4096 + j.val, by omega⟩

variable (x : SX.Idx → EReal) (W : SW.Idx → EReal) (D : SD.Idx → EReal)

/-- The gate projection of a token at an intermediate column. -/
def gate (e : Fin 8) (r : Fin 1024) (j : Fin 4096) : EReal :=
  ∑ h : Fin 2048, x (ix2 (tok e r) h) * W (ix3 e h (colG j))
/-- The up projection. -/
def up (e : Fin 8) (r : Fin 1024) (j : Fin 4096) : EReal :=
  ∑ h : Fin 2048, x (ix2 (tok e r) h) * W (ix3 e h (colU j))
/-- The gated activation: up · (gate · σ(gate)). -/
def act (e : Fin 8) (r : Fin 1024) (j : Fin 4096) : EReal :=
  up x W e r j * (gate x W e r j * Ideal.logistic (gate x W e r j))
/-- One entry of expert `e`'s result: the activation row against a column of the down weights. -/
def out (e : Fin 8) (r : Fin 1024) (h : Fin 2048) : EReal :=
  ∑ j : Fin 4096, act x W e r j * D (ix3 e j h)

/-- The result per expert, [8, 1024, 2048]. -/
def G3 : SO.Idx → EReal := fun i => out x W D (i 0) (i 1) (i 2)

/-- The result as the programs return it, [8192, 2048]: row `n` is token `n % 1024` of expert `n / 1024`. -/
def G : SX.Idx → EReal := fun i =>
  out x W D ⟨(i 0).val / 1024, by have := idx2_lt0 i; omega⟩ ⟨(i 0).val % 1024, Nat.mod_lt _ (by norm_num)⟩ (i 1)

/-! ## The contraction in eight chunks -/

/-- Column `j'` of chunk `k` (for `k < 8` it is column `512 * k + j'`). -/
def chunkCol (k : ℕ) (j' : Fin 512) : Fin 4096 := ⟨(512 * k + j'.val) % 4096, Nat.mod_lt _ (by norm_num)⟩

/-- Chunk `k`'s share of a result entry. -/
def outChunk (e : Fin 8) (r : Fin 1024) (h : Fin 2048) (k : ℕ) : EReal :=
  ∑ j' : Fin 512, act x W e r (chunkCol k j') * D (ix3 e (chunkCol k j') h)

/-- The running sum after the first `n` chunks, started at zero and added to on the right, as the kernel does. -/
def partialOut (e : Fin 8) (r : Fin 1024) (h : Fin 2048) : ℕ → EReal
  | 0 => 0
  | n + 1 => partialOut e r h n + outChunk x W D e r h n

/-! ## Regrouping the 4096 columns into eight runs of 512 -/

/-- A sum over the first `512 * n` naturals is the sum of its `n` consecutive runs of 512. -/
theorem sum_range_runs (F : ℕ → EReal) (n : ℕ) :
    ∑ i ∈ Finset.range (512 * n), F i
      = ∑ k ∈ Finset.range n, ∑ i ∈ Finset.range 512, F (512 * k + i) := by
  induction n with
  | zero => simp
  | succ n ih =>
    rw [Nat.mul_succ, Finset.sum_range_add, ih,
      Finset.sum_range_succ (fun k => ∑ i ∈ Finset.range 512, F (512 * k + i)) n]

/-- A sum over the 4096 columns is the sum over the eight chunks of the sum over each chunk's 512 columns. -/
theorem sum_chunks (f : Fin 4096 → EReal) :
    ∑ j : Fin 4096, f j = ∑ k ∈ Finset.range 8, ∑ j' : Fin 512, f (chunkCol k j') := by
  -- read `f` at a natural number modulo 4096, so that both sides become sums over ranges of naturals
  let F : ℕ → EReal := fun i => f ⟨i % 4096, Nat.mod_lt _ (by norm_num)⟩
  have hF : ∀ j : Fin 4096, f j = F j.val := fun j => by
    show f j = f ⟨j.val % 4096, _⟩
    congr 1
    exact Fin.ext (Nat.mod_eq_of_lt j.isLt).symm
  have h1 : ∑ j : Fin 4096, f j = ∑ i ∈ Finset.range 4096, F i := by
    rw [← Fin.sum_univ_eq_sum_range F 4096]
    exact Finset.sum_congr rfl (fun j _ => hF j)
  have h2 : ∀ k, ∑ j' : Fin 512, f (chunkCol k j') = ∑ i ∈ Finset.range 512, F (512 * k + i) := fun k => by
    rw [← Fin.sum_univ_eq_sum_range (fun i => F (512 * k + i)) 512]
    rfl
  rw [h1]
  refine (sum_range_runs F 8).trans ?_
  exact Finset.sum_congr rfl (fun k _ => (h2 k).symm)

/-- The running sum after `n` chunks is the sum of the first `n` chunks' shares. -/
theorem partialOut_eq_sum (e : Fin 8) (r : Fin 1024) (h : Fin 2048) (n : ℕ) :
    partialOut x W D e r h n = ∑ k ∈ Finset.range n, outChunk x W D e r h k := by
  induction n with
  | zero => simp [partialOut]
  | succ n ih => rw [partialOut, Finset.sum_range_succ, ih]

/-- After the eighth chunk the running sum is the whole contraction. -/
theorem partialOut_eight (e : Fin 8) (r : Fin 1024) (h : Fin 2048) :
    partialOut x W D e r h 8 = out x W D e r h := by
  rw [partialOut_eq_sum, out, sum_chunks (fun j => act x W e r j * D (ix3 e j h))]
  rfl

end Cert.Experts

end
-- ==== Proof.KI.BlockIdx.lean ====
/-
  The blocks the body loads at a grid point, read at coordinates against the argument arrays. Point `t` of the
  8 × 8 × 8 grid (chunk fastest) is expert `t / 64`, token tile `(t / 8) % 8`, chunk `t % 8`. Its token tile is
  rows `128 · tile …` of the expert's 1024 tokens (themselves rows `1024 · expert …` of the token matrix, by the
  reshape before the region); its gate chunk is columns `512 · chunk …` of the expert's weight slab, its up chunk
  the same columns shifted by 4096 — two blocks of ONE array —, and its down chunk rows `512 · chunk …` of the
  expert's down slab. So the chunk term of the point's blocks is the specification's chunk `t % 8`.
-/
import proofs.«143651_j38036230373627_1_alg».proof.Proof.KI.Base
import proofs.«143651_j38036230373627_1_alg».proof.Proof.KI.PayIdx
import proofs.«143651_j38036230373627_1_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The grid has 512 points; a point's expert, -/
def ptE (t : Fin cfg0.N) : Fin 8 := ⟨t.val / 64, by have : t.val < 512 := lt_of_lt_of_eq t.isLt N_0; omega⟩
/-- and row `r` of its token tile among the expert's 1024 tokens. -/
def ptRow (t : Fin cfg0.N) (r : Fin 128) : Fin 1024 := ⟨(t.val / 8) % 8 * 128 + r.val, by omega⟩

/-- The four input windows' block indices at a point, decided over the 512 points: the token tile is block
    (expert, tile, 0); the gate chunk block (expert, 0, chunk) and the up chunk block (expert, 0, chunk + 8) of the
    weight slab; the down chunk block (expert, chunk, 0). -/
theorem idx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = 0 ∧ win0_1.index t (2 : Fin 3) = t.val % 8
    ∧ win0_2.index t (0 : Fin 3) = t.val / 64 ∧ win0_2.index t (1 : Fin 3) = 0 ∧ win0_2.index t (2 : Fin 3) = t.val % 8 + 8
    ∧ win0_3.index t (0 : Fin 3) = t.val / 64 ∧ win0_3.index t (1 : Fin 3) = t.val % 8 ∧ win0_3.index t (2 : Fin 3) = 0 :=
  (by decide +kernel : ∀ t : Fin grid0.N, _)

section
variable {F : FTy → Type} [FloatOps F] (m : (ℓ : Loc nD τ sig) → Buf (Elt F) ℓ)

/-- When the region is entered the weight arrays hold their launch contents: the one operation before it writes
    neither. -/
theorem V_arg1 (c : Dev nD) : V m c main_arg1 = m ((c.tc : Thread nD τ).loc main_arg1) := by
  dsimp only [V, V0, hostOps0]; after_results

theorem V_arg2 (c : Dev nD) : V m c main_arg2 = m ((c.tc : Thread nD τ).loc main_arg2) := by
  dsimp only [V, V0, hostOps0]; after_results

/-- The per-expert token array is the reshape of the token matrix. -/
theorem V_v0 (c : Dev nD) : (V m c main_v0 : S8x1024x2048.Idx → Elt F .f32)
    = shapeCast S8x1024x2048 (m ((c.tc : Thread nD τ).loc main_arg0)) shapeCasts_S8192x2048_S8x1024x2048 := by
  dsimp only [V, V0, hostOps0]; after_results; rfl

/-- The reshape at an index: entry (e, r, k) of the per-expert view is entry (e · 1024 + r, k) of the token matrix. -/
theorem V_v0_apply (c : Dev nD) (e : Fin 8) (r : Fin 1024) (k : Fin 2048) :
    (V m c main_v0 : S8x1024x2048.Idx → Elt F .f32) (ix3 e r k)
      = m ((c.tc : Thread nD τ).loc main_arg0) (ix2 (Cert.Experts.tok e r) k) := by
  rw [V_v0]
  refine shapeCast_apply _ shapeCasts_S8192x2048_S8x1024x2048 (ix3 e r k) (ix2 (Cert.Experts.tok e r) k) ?_
  rewrite [Shape.rowMajor_val_two, Shape.rowMajor_val_three]
  rfl

/-- The four input blocks of a point, at their literal types. -/
abbrev xblk (c : Dev nD) (t : Fin cfg0.N) : Vec F S1x128x2048 .f32 := iblk m c 0 t
abbrev gblk (c : Dev nD) (t : Fin cfg0.N) : Vec F S1x2048x512 .f32 := iblk m c 1 t
abbrev ublk (c : Dev nD) (t : Fin cfg0.N) : Vec F S1x2048x512 .f32 := iblk m c 2 t
abbrev dblk (c : Dev nD) (t : Fin cfg0.N) : Vec F S1x512x2048 .f32 := iblk m c 3 t

theorem xblk_apply (c : Dev nD) (t : Fin cfg0.N) (r : Fin 128) (k : Fin 2048) :
    xblk m c t (ix3 (0 : Fin 1) r k)
      = m ((c.tc : Thread nD τ).loc main_arg0) (ix2 (Cert.Experts.tok (ptE t) (ptRow t r)) k) := by
  have ht : t.val < 512 := lt_of_lt_of_eq t.isLt N_0
  obtain ⟨a0, a1, a2, -⟩ := idx_facts t
  have hr : r.val < 128 := r.isLt
  have hk : k.val < 2048 := k.isLt
  show V m c main_v0 (((cfg0.win 0).blk t).view.emb (ix3 (0 : Fin 1) r k)) = _
  rw [← V_v0_apply m c (ptE t) (ptRow t r) k]
  refine congrArg (V m c main_v0) (funext fun a => Fin.ext ?_)
  match a with
  | ⟨0, _⟩ => show win0_0.index t (0 : Fin 3) * 1 + 1 * 0 = t.val / 64; omega
  | ⟨1, _⟩ => show win0_0.index t (1 : Fin 3) * 128 + 1 * r.val = t.val / 8 % 8 * 128 + r.val; omega
  | ⟨2, _⟩ => show win0_0.index t (2 : Fin 3) * 2048 + 1 * k.val = k.val; omega

theorem gblk_apply (c : Dev nD) (t : Fin cfg0.N) (k : Fin 2048) (j : Fin 512) :
    gblk m c t (ix3 (0 : Fin 1) k j)
      = m ((c.tc : Thread nD τ).loc main_arg1) (ix3 (ptE t) k (Cert.Experts.colG (Cert.Experts.chunkCol (t.val % 8) j))) := by
  have ht : t.val < 512 := lt_of_lt_of_eq t.isLt N_0
  obtain ⟨-, -, -, b0, b1, b2, -⟩ := idx_facts t
  have hk : k.val < 2048 := k.isLt
  have hj : j.val < 512 := j.isLt
  show V m c main_arg1 (((cfg0.win 1).blk t).view.emb (ix3 (0 : Fin 1) k j)) = _
  rw [V_arg1]
  refine congrArg (m ((c.tc : Thread nD τ).loc main_arg1)) (funext fun a => Fin.ext ?_)
  match a with
  | ⟨0, _⟩ => show win0_1.index t (0 : Fin 3) * 1 + 1 * 0 = t.val / 64; omega
  | ⟨1, _⟩ => show win0_1.index t (1 : Fin 3) * 2048 + 1 * k.val = k.val; omega
  | ⟨2, _⟩ => show win0_1.index t (2 : Fin 3) * 512 + 1 * j.val = (512 * (t.val % 8) + j.val) % 4096; omega

theorem ublk_apply (c : Dev nD) (t : Fin cfg0.N) (k : Fin 2048) (j : Fin 512) :
    ublk m c t (ix3 (0 : Fin 1) k j)
      = m ((c.tc : Thread nD τ).loc main_arg1) (ix3 (ptE t) k (Cert.Experts.colU (Cert.Experts.chunkCol (t.val % 8) j))) := by
  have ht : t.val < 512 := lt_of_lt_of_eq t.isLt N_0
  obtain ⟨-, -, -, -, -, -, c0, c1, c2, -⟩ := idx_facts t
  have hk : k.val < 2048 := k.isLt
  have hj : j.val < 512 := j.isLt
  show V m c main_arg1 (((cfg0.win 2).blk t).view.emb (ix3 (0 : Fin 1) k j)) = _
  rw [V_arg1]
  refine congrArg (m ((c.tc : Thread nD τ).loc main_arg1)) (funext fun a => Fin.ext ?_)
  match a with
  | ⟨0, _⟩ => show win0_2.index t (0 : Fin 3) * 1 + 1 * 0 = t.val / 64; omega
  | ⟨1, _⟩ => show win0_2.index t (1 : Fin 3) * 2048 + 1 * k.val = k.val; omega
  | ⟨2, _⟩ => show win0_2.index t (2 : Fin 3) * 512 + 1 * j.val = 4096 + (512 * (t.val % 8) + j.val) % 4096; omega

theorem dblk_apply (c : Dev nD) (t : Fin cfg0.N) (j : Fin 512) (h : Fin 2048) :
    dblk m c t (ix3 (0 : Fin 1) j h)
      = m ((c.tc : Thread nD τ).loc main_arg2) (ix3 (ptE t) (Cert.Experts.chunkCol (t.val % 8) j) h) := by
  have ht : t.val < 512 := lt_of_lt_of_eq t.isLt N_0
  obtain ⟨-, -, -, -, -, -, -, -, -, d0, d1, d2⟩ := idx_facts t
  have hj : j.val < 512 := j.isLt
  have hh : h.val < 2048 := h.isLt
  show V m c main_arg2 (((cfg0.win 3).blk t).view.emb (ix3 (0 : Fin 1) j h)) = _
  rw [V_arg2]
  refine congrArg (m ((c.tc : Thread nD τ).loc main_arg2)) (funext fun a => Fin.ext ?_)
  match a with
  | ⟨0, _⟩ => show win0_3.index t (0 : Fin 3) * 1 + 1 * 0 = t.val / 64; omega
  | ⟨1, _⟩ => show win0_3.index t (1 : Fin 3) * 512 + 1 * j.val = (512 * (t.val % 8) + j.val) % 4096; omega
  | ⟨2, _⟩ => show win0_3.index t (2 : Fin 3) * 2048 + 1 * h.val = h.val; omega
end

/-- At the extended reals: the chunk term of a point's blocks is the specification's chunk `t % 8` of the entry of
    the point's expert, token row and column. -/
theorem chunkTerm_blocks (m : (ℓ : Loc nD τ sig) → Buf (Elt Ideal) ℓ) (c : Dev nD) (t : Fin cfg0.N) (r : Fin 128) (h : Fin 2048) :
    chunkTerm (xblk m c t) (gblk m c t) (ublk m c t) (dblk m c t) r h
      = Cert.Experts.outChunk (m ((c.tc : Thread nD τ).loc main_arg0)) (m ((c.tc : Thread nD τ).loc main_arg1))
          (m ((c.tc : Thread nD τ).loc main_arg2)) (ptE t) (ptRow t r) h (t.val % 8) := by
  have hg : ∀ j : Fin 512, proj (xblk m c t) (gblk m c t) r j
      = Cert.Experts.gate (m ((c.tc : Thread nD τ).loc main_arg0)) (m ((c.tc : Thread nD τ).loc main_arg1))
          (ptE t) (ptRow t r) (Cert.Experts.chunkCol (t.val % 8) j) := fun j => by
    unfold proj Cert.Experts.gate
    refine Finset.sum_congr rfl fun k _ => ?_
    rw [xblk_apply, gblk_apply]
  have hu : ∀ j : Fin 512, proj (xblk m c t) (ublk m c t) r j
      = Cert.Experts.up (m ((c.tc : Thread nD τ).loc main_arg0)) (m ((c.tc : Thread nD τ).loc main_arg1))
          (ptE t) (ptRow t r) (Cert.Experts.chunkCol (t.val % 8) j) := fun j => by
    unfold proj Cert.Experts.up
    refine Finset.sum_congr rfl fun k _ => ?_
    rw [xblk_apply, ublk_apply]
  unfold chunkTerm Cert.Experts.outChunk Cert.Experts.act
  refine Finset.sum_congr rfl fun j _ => ?_
  rw [hg, hu, dblk_apply]

end Cert.KernelIdeal.Hand

end
-- ==== Proof.KI.Accum.lean ====
/-
  The accumulator, point by point, on the extended reals. Within a token tile the eight points walk the eight
  chunks of the intermediate axis; after the point of chunk `k` the accumulator holds, at row `r` and column `h`,
  the specification's running sum of chunks 0 … k of the entry of the point's expert, token row and column
  (zero plus the first chunk's share at chunk 0; what the point before left plus this chunk's share afterwards).
  At chunk 7 the output block is a copy of the accumulator: the whole contraction.
-/
import proofs.«143651_j38036230373627_1_alg».proof.Proof.KI.Pieces
import proofs.«143651_j38036230373627_1_alg».proof.Proof.KI.PayIdx
import proofs.«143651_j38036230373627_1_alg».proof.Proof.KI.BlockIdx
import proofs.«143651_j38036230373627_1_alg».proof.Proof.Spec

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Past a tile's first chunk, the point before lies in the same tile: what the statement at the point before
    says of the accumulator, said at this point's expert and token row, with one chunk fewer. -/
theorem prev_at (c : Dev nD) (t : Fin cfg0.N) (h0 : ¬t.val % 8 = 0)
    (H : ∀ (r : Fin 128) (h : Fin 2048),
      (outsAt0 m c (t.val - 1) (Nat.lt_of_le_of_lt (Nat.sub_le _ _) t.isLt)).2 (ix2 r h)
        = Cert.Experts.partialOut (m ((c.tc : Thread nD τ).loc main_arg0)) (m ((c.tc : Thread nD τ).loc main_arg1)) (m ((c.tc : Thread nD τ).loc main_arg2))
            (ptE ⟨t.val - 1, Nat.lt_of_le_of_lt (Nat.sub_le _ _) t.isLt⟩)
            (ptRow ⟨t.val - 1, Nat.lt_of_le_of_lt (Nat.sub_le _ _) t.isLt⟩ r) h ((t.val - 1) % 8 + 1))
    (r : Fin 128) (h : Fin 2048) :
    (outsAt0 m c (t.val - 1) (Nat.lt_of_le_of_lt (Nat.sub_le _ _) t.isLt)).2 (ix2 r h)
      = Cert.Experts.partialOut (m ((c.tc : Thread nD τ).loc main_arg0)) (m ((c.tc : Thread nD τ).loc main_arg1)) (m ((c.tc : Thread nD τ).loc main_arg2)) (ptE t) (ptRow t r) h (t.val % 8) := by
  have hN : t.val < 512 := lt_of_lt_of_eq t.isLt N_0
  have hE : ptE ⟨t.val - 1, Nat.lt_of_le_of_lt (Nat.sub_le _ _) t.isLt⟩ = ptE t :=
    Fin.ext (by show (t.val - 1) / 64 = t.val / 64; omega)
  have hR : ptRow ⟨t.val - 1, Nat.lt_of_le_of_lt (Nat.sub_le _ _) t.isLt⟩ r = ptRow t r :=
    Fin.ext (by show (t.val - 1) / 8 % 8 * 128 + r.val = t.val / 8 % 8 * 128 + r.val; omega)
  have hk : (t.val - 1) % 8 + 1 = t.val % 8 := by omega
  rw [H r h, hE, hR, hk]

/-- The stored sum over what the point before left is the running sum with this point's chunk added. -/
theorem step_at (c : Dev nD) (t : Fin cfg0.N)
    (P : ∀ (r : Fin 128) (h : Fin 2048),
      (outsAt0 m c (t.val - 1) (Nat.lt_of_le_of_lt (Nat.sub_le _ _) t.isLt)).2 (ix2 r h)
        = Cert.Experts.partialOut (m ((c.tc : Thread nD τ).loc main_arg0)) (m ((c.tc : Thread nD τ).loc main_arg1)) (m ((c.tc : Thread nD τ).loc main_arg2)) (ptE t) (ptRow t r) h (t.val % 8))
    (r : Fin 128) (h : Fin 2048) :
    k0_pay2 (F := Ideal) (iblk m c 0 t) (iblk m c 1 t) (iblk m c 2 t) (iblk m c 3 t) (outsAt0 m c (t.val - 1) (Nat.lt_of_le_of_lt (Nat.sub_le _ _) t.isLt)).2 (ix2 r h)
      = Cert.Experts.partialOut (m ((c.tc : Thread nD τ).loc main_arg0)) (m ((c.tc : Thread nD τ).loc main_arg1)) (m ((c.tc : Thread nD τ).loc main_arg2)) (ptE t) (ptRow t r) h (t.val % 8 + 1) := by
  refine (pay2_apply (xblk m c t) (gblk m c t) (ublk m c t) (dblk m c t) (outsAt0 m c (t.val - 1) (Nat.lt_of_le_of_lt (Nat.sub_le _ _) t.isLt)).2 r h).trans ?_
  rw [P r h, chunkTerm_blocks]
  rfl

/-- The induction over the points, by the point's number. -/
theorem scratch_at_aux (c : Dev nD) (n : ℕ) : ∀ t : Fin cfg0.N, t.val = n → ∀ (r : Fin 128) (h : Fin 2048),
    (outsAt0 m c t.val t.isLt).2 (ix2 r h)
      = Cert.Experts.partialOut (m ((c.tc : Thread nD τ).loc main_arg0)) (m ((c.tc : Thread nD τ).loc main_arg1)) (m ((c.tc : Thread nD τ).loc main_arg2)) (ptE t) (ptRow t r) h (t.val % 8 + 1) := by
  induction n using Nat.strong_induction_on with
  | _ n ih =>
  intro t ht r h
  have hN : t.val < 512 := lt_of_lt_of_eq t.isLt N_0
  by_cases h0 : t.val % 8 = 0
  · -- a tile's first chunk: zero plus the chunk's share
    have h1 : ¬t.val % 8 = 7 := by omega
    rw [outsAt0_A m c t h0 h1]
    dsimp only
    refine (congrFun (sout0_A_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hc => h1 ((hcond0_1 t).mp hc)) (iblk m c 0 t) (iblk m c 1 t) (iblk m c 2 t) (iblk m c 3 t)) (ix2 r h)).trans ?_
    refine (pay2_apply (xblk m c t) (gblk m c t) (ublk m c t) (dblk m c t) (k0_pay1 (F := Ideal)) r h).trans ?_
    rw [pay1_apply, zero_add, chunkTerm_blocks, h0]
    simp only [Cert.Experts.partialOut, zero_add]
  · -- a later chunk: what the point before left plus the chunk's share
    have P : ∀ (r : Fin 128) (h : Fin 2048), (outsAt0 m c (t.val - 1) (Nat.lt_of_le_of_lt (Nat.sub_le _ _) t.isLt)).2 (ix2 r h)
        = Cert.Experts.partialOut (m ((c.tc : Thread nD τ).loc main_arg0)) (m ((c.tc : Thread nD τ).loc main_arg1)) (m ((c.tc : Thread nD τ).loc main_arg2)) (ptE t) (ptRow t r) h (t.val % 8) :=
      prev_at m c t h0 (fun r h => ih (t.val - 1) (by omega) ⟨t.val - 1, Nat.lt_of_le_of_lt (Nat.sub_le _ _) t.isLt⟩ rfl r h)
    by_cases h1 : t.val % 8 = 7
    · rw [outsAt0_C m c t h0 h1]
      dsimp only
      refine (congrFun (sout0_C_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hc => h0 ((hcond0_0 t).mp hc)) ((hcond0_1 t).mpr h1) (iblk m c 0 t) (iblk m c 1 t) (iblk m c 2 t) (iblk m c 3 t) (outsAt0 m c (t.val - 1) (Nat.lt_of_le_of_lt (Nat.sub_le _ _) t.isLt)).2) (ix2 r h)).trans ?_
      exact step_at m c t P r h
    · rw [outsAt0_B m c t h0 h1]
      dsimp only
      refine (congrFun (sout0_B_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hc => h0 ((hcond0_0 t).mp hc)) (fun hc => h1 ((hcond0_1 t).mp hc)) (iblk m c 0 t) (iblk m c 1 t) (iblk m c 2 t) (iblk m c 3 t) (outsAt0 m c (t.val - 1) (Nat.lt_of_le_of_lt (Nat.sub_le _ _) t.isLt)).2) (ix2 r h)).trans ?_
      exact step_at m c t P r h

/-- After the point of chunk `t % 8` the accumulator holds the running sum of the first `t % 8 + 1` chunks. -/
theorem scratch_at (c : Dev nD) (t : Fin cfg0.N) (r : Fin 128) (h : Fin 2048) :
    (outsAt0 m c t.val t.isLt).2 (ix2 r h)
      = Cert.Experts.partialOut (m ((c.tc : Thread nD τ).loc main_arg0)) (m ((c.tc : Thread nD τ).loc main_arg1))
          (m ((c.tc : Thread nD τ).loc main_arg2)) (ptE t) (ptRow t r) h (t.val % 8 + 1) :=
  scratch_at_aux m c t.val t rfl r h

/-- At the last chunk of a token tile the output block holds the whole contraction. -/
theorem out_at (c : Dev nD) (t : Fin cfg0.N) (h1 : t.val % 8 = 7) (r : Fin 128) (h : Fin 2048) :
    (outsAt0 m c t.val t.isLt).1 (ix3 (0 : Fin 1) r h)
      = Cert.Experts.out (m ((c.tc : Thread nD τ).loc main_arg0)) (m ((c.tc : Thread nD τ).loc main_arg1))
          (m ((c.tc : Thread nD τ).loc main_arg2)) (ptE t) (ptRow t r) h := by
  have h0 : ¬t.val % 8 = 0 := by omega
  have P : ∀ (r : Fin 128) (h : Fin 2048), (outsAt0 m c (t.val - 1) (Nat.lt_of_le_of_lt (Nat.sub_le _ _) t.isLt)).2 (ix2 r h)
      = Cert.Experts.partialOut (m ((c.tc : Thread nD τ).loc main_arg0)) (m ((c.tc : Thread nD τ).loc main_arg1)) (m ((c.tc : Thread nD τ).loc main_arg2)) (ptE t) (ptRow t r) h (t.val % 8) :=
    prev_at m c t h0 (fun r h => scratch_at m c ⟨t.val - 1, Nat.lt_of_le_of_lt (Nat.sub_le _ _) t.isLt⟩ r h)
  rw [outsAt0_C m c t h0 h1]
  dsimp only
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hc => h0 ((hcond0_0 t).mp hc)) ((hcond0_1 t).mpr h1) (iblk m c 0 t) (iblk m c 1 t) (iblk m c 2 t) (iblk m c 3 t) (outsAt0 m c (t.val - 1) (Nat.lt_of_le_of_lt (Nat.sub_le _ _) t.isLt)).2) (ix3 (0 : Fin 1) r h)).trans ?_
  refine (pay3_apply _ r h).trans ?_
  refine (step_at m c t P r h).trans ?_
  rw [h1]
  exact Cert.Experts.partialOut_eight _ _ _ _ _ _

end Cert.KernelIdeal.Hand

end
-- ==== Proof.KI.Final.lean ====
/-
  The region's output array after the run, and the program's result. The block written back at the last chunk
  of a token tile holds the whole contraction for the tile's 128 token rows of its expert (block index: expert,
  tile); these 64 blocks tile the [8, 1024, 2048] array, so the array ends at the specification per expert, and
  flattening the expert axis into the rows gives the specification's [8192, 2048] result.
-/
import proofs.«143651_j38036230373627_1_alg».proof.Proof.KI.Accum
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The output window's block index at a point, decided over the 512 points: (expert, tile, 0). -/
theorem idx4 : ∀ t : Fin cfg0.N,
    win0_4.index t (0 : Fin 3) = t.val / 64 ∧ win0_4.index t (1 : Fin 3) = t.val / 8 % 8 ∧ win0_4.index t (2 : Fin 3) = 0 :=
  (by decide +kernel : ∀ t : Fin grid0.N, _)

/-- Where entry (0, r, h) of a point's output block sits in the array: expert, row of the tile, column. -/
theorem emb4 (t : Fin cfg0.N) (r : Fin 128) (h : Fin 2048) :
    ((cfg0.win 4).blk t).view.emb (ix3 (0 : Fin 1) r h) = ix3 (ptE t) (ptRow t r) h := by
  have ht : t.val < 512 := lt_of_lt_of_eq t.isLt N_0
  obtain ⟨a0, a1, a2⟩ := idx4 t
  have hr : r.val < 128 := r.isLt
  have hh : h.val < 2048 := h.isLt
  refine funext fun a => Fin.ext ?_
  match a with
  | ⟨0, _⟩ => show win0_4.index t (0 : Fin 3) * 1 + 1 * 0 = t.val / 64; omega
  | ⟨1, _⟩ => show win0_4.index t (1 : Fin 3) * 128 + 1 * r.val = t.val / 8 % 8 * 128 + r.val; omega
  | ⟨2, _⟩ => show win0_4.index t (2 : Fin 3) * 2048 + 1 * h.val = h.val; omega

/-- What a point at the last chunk of a token tile writes back is its block of the specification per expert. -/
theorem flushed4_eq (c : Dev nD) (t : Fin cfg0.N) (hf : (cfg0.win 4).flush t = true) :
    (dats m 0 c).flushed 4 t
      = ((cfg0.win 4).blk t).view.read (Elt Ideal)
          (Cert.Experts.G3 (m ((c.tc : Thread nD τ).loc main_arg0)) (m ((c.tc : Thread nD τ).loc main_arg1))
            (m ((c.tc : Thread nD τ).loc main_arg2))) := by
  have h7 : t.val % 8 = 7 := (flush0_4 t).mp hf
  show (cfg0.win 4).cut (grid0.coords t) ((dats m 0 c).after 4 t) = _
  rw [after0_4]
  refine funext fun (y : S1x128x2048.Idx) => ?_
  obtain ⟨z, r, h, rfl⟩ : ∃ (z : Fin 1) (r : Fin 128) (h : Fin 2048), y = ix3 z r h := ⟨y 0, y 1, y 2, eq_ix3 y⟩
  obtain rfl : z = 0 := Subsingleton.elim _ _
  show (outsAt0 m c t.val t.isLt).1 (ix3 (0 : Fin 1) r h)
    = Cert.Experts.G3 (m ((c.tc : Thread nD τ).loc main_arg0)) (m ((c.tc : Thread nD τ).loc main_arg1))
        (m ((c.tc : Thread nD τ).loc main_arg2)) (((cfg0.win 4).blk t).view.emb (ix3 (0 : Fin 1) r h))
  rw [out_at m c t h7 r h, emb4 t r h]
  rfl

/-- An index of the output array is in a point's block iff each coordinate is in the block's range on its axis. -/
theorem mem_blk4 (t : Fin cfg0.N) (i : S8x1024x2048.Idx) :
    i ∈ ((cfg0.win 4).blk t).view.set ↔ ∀ a : Fin 3, win0_4.index t a * S1x128x2048.size a ≤ (i a).val
      ∧ (i a).val < win0_4.index t a * S1x128x2048.size a + S1x128x2048.size a := by
  show i ∈ ((View.whole main_v1).slice (win0_4.rect t)).set ↔ _
  rw [View.set_slice_whole, Rect.mem_set_unit]
  exact Iff.rfl

/-- The 64 blocks written back tile the array: entry (e, row, h) is in the block of the last chunk's point of expert
    e and tile row / 128, the point 64 · e + 8 · (row / 128) + 7. -/
theorem cover4 (i : S8x1024x2048.Idx) :
    ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hN : cfg0.N = 512 := N_0
  let t : Fin cfg0.N := ⟨64 * (i 0).val + 8 * ((i 1).val / 128) + 7, by omega⟩
  have htv : t.val = 64 * (i 0).val + 8 * ((i 1).val / 128) + 7 := rfl
  obtain ⟨a0, a1, a2⟩ := idx4 t
  refine ⟨t, (flush0_4 t).mpr (by omega), (mem_blk4 t i).mpr fun a => ?_⟩
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 2048 ≤ (i 2).val ∧ (i 2).val < win0_4.index t (2 : Fin 3) * 2048 + 2048; omega

/-- The output array ends at the specification, per expert. -/
theorem arrAt_out (c : Dev nD) :
    (dats m 0 c).arrAt 4 cfg0.N
      = Cert.Experts.G3 (m ((c.tc : Thread nD τ).loc main_arg0)) (m ((c.tc : Thread nD τ).loc main_arg1))
          (m ((c.tc : Thread nD τ).loc main_arg2)) :=
  (dats m 0 c).arrAt_eq_of_cover 4 _ (fun t hf => flushed4_eq m c t hf) cover4

/-- Flattened, it is the specification's result. -/
theorem result_eq (c : Dev nD) :
    shapeCast S8192x2048 ((dats m 0 c).arrAt 4 cfg0.N) shapeCasts_S8x1024x2048_S8192x2048
      = Cert.Experts.G (m ((c.tc : Thread nD τ).loc main_arg0)) (m ((c.tc : Thread nD τ).loc main_arg1))
          (m ((c.tc : Thread nD τ).loc main_arg2)) := by
  rw [arrAt_out]
  funext i
  obtain ⟨n, h, rfl⟩ : ∃ (n : Fin 8192) (h : Fin 2048), i = ix2 n h := ⟨i 0, i 1, eq_ix2 i⟩
  have hn : n.val < 8192 := n.isLt
  refine (shapeCast_apply _ shapeCasts_S8x1024x2048_S8192x2048 (ix2 n h)
    (ix3 (⟨n.val / 1024, by omega⟩ : Fin 8) (⟨n.val % 1024, Nat.mod_lt _ (by norm_num)⟩ : Fin 1024) h) ?_).trans rfl
  rewrite [Shape.rowMajor_val_three, Shape.rowMajor_val_two]
  show (n.val / 1024 * 1024 + n.val % 1024) * 2048 + h.val = n.val * 2048 + h.val
  omega

end Cert.KernelIdeal.Hand

end
-- ==== Proof.RefValue.lean ====
/-
  The reference program's result, read one operation at a time, is the specification's function of the three
  argument arrays: the batched product of the tokens with the gate-and-up weights, its two halves, the gated
  activation up · (gate · (1 / (1 + exp (-gate)))) — the logistic function spelt out —, the batched product with
  the down weights, and the final flattening of the expert axis into the rows.
-/
import proofs.«143651_j38036230373627_1_alg».proof.Proof.Gen.ReferenceIdeal.Run
import proofs.«143651_j38036230373627_1_alg».proof.Proof.Gen.ReferenceIdeal.Read
import proofs.«143651_j38036230373627_1_alg».proof.Proof.Spec
import Idealize.ShloMosaic.Lib.IdealHost

noncomputable section

namespace Cert.ReferenceIdeal.RefValue

open Cert.ReferenceIdeal Cert.ReferenceIdeal.Gen Idealize.ShloMosaic Idealize.ShloMosaic.ValueIdx

variable (x0 : (⟨S8192x2048, .f32⟩ : BufTy).Contents (Elt Ideal)) (x1 : (⟨S8x2048x8192, .f32⟩ : BufTy).Contents (Elt Ideal))
  (x2 : (⟨S8x4096x2048, .f32⟩ : BufTy).Contents (Elt Ideal))

/-- The first reshape: entry (e, r, h) of the per-expert view is entry (e · 1024 + r, h) of the token matrix, since
    ((e · 1024 + r) · 2048 + h) / 2048 = e · 1024 + r and the remainder is h. -/
theorem v0_at (e : Fin 8) (r : Fin 1024) (h : Fin 2048) :
    Read.val_main_v0 (F := Ideal) x0 (ix3 e r h) = x0 (ix2 (Experts.tok e r) h) := by
  rw [Read.val_main_v0_apply]
  refine congrArg x0 (funext fun a => Fin.ext ?_)
  have he : e.val < 8 := e.isLt
  have hr : r.val < 1024 := r.isLt
  have hh : h.val < 2048 := h.isLt
  match a with
  | ⟨0, _⟩ => show ((e.val * 1024 + r.val) * 2048 + h.val) / 2048 = e.val * 1024 + r.val; omega
  | ⟨1, _⟩ => show ((e.val * 1024 + r.val) * 2048 + h.val) % 2048 = h.val; omega

/-- The first batched product: entry (e, r, c) is the token row against column c of expert e's slab. -/
theorem v1_at (e : Fin 8) (r : Fin 1024) (c : Fin 8192) :
    Read.val_main_v1 (F := Ideal) x0 x1 (ix3 e r c)
      = ∑ h : Fin 2048, x0 (ix2 (Experts.tok e r) h) * x1 (ix3 e h c) := by
  rw [Read.val_main_v1_apply]
  refine Finset.sum_congr rfl fun k _ => ?_
  have hl : Read.lidx_main_v1 (ix3 e r c) k = ix3 e r k := funext fun a => Fin.ext (by
    match a with
    | ⟨0, _⟩ => rfl
    | ⟨1, _⟩ => rfl
    | ⟨2, _⟩ => rfl)
  have hr : Read.ridx_main_v1 (ix3 e r c) k = ix3 e k c := funext fun a => Fin.ext (by
    match a with
    | ⟨0, _⟩ => rfl
    | ⟨1, _⟩ => rfl
    | ⟨2, _⟩ => rfl)
  rw [hl, hr, v0_at]

/-- The lower half of the columns is the gate projection. -/
theorem v2_at (e : Fin 8) (r : Fin 1024) (j : Fin 4096) :
    Read.val_main_v2 (F := Ideal) x0 x1 (ix3 e r j) = Experts.gate x0 x1 e r j := by
  rw [Read.val_main_v2_apply]
  have hi : Read.idx_main_v2 (ix3 e r j) = ix3 e r (Experts.colG j) := funext fun a => Fin.ext (by
    match a with
    | ⟨0, _⟩ => rfl
    | ⟨1, _⟩ => rfl
    | ⟨2, _⟩ => rfl)
  rw [hi, v1_at]
  rfl

/-- The upper half of the columns is the up projection. -/
theorem v3_at (e : Fin 8) (r : Fin 1024) (j : Fin 4096) :
    Read.val_main_v3 (F := Ideal) x0 x1 (ix3 e r j) = Experts.up x0 x1 e r j := by
  rw [Read.val_main_v3_apply]
  have hi : Read.idx_main_v3 (ix3 e r j) = ix3 e r (Experts.colU j) := funext fun a => Fin.ext (by
    match a with
    | ⟨0, _⟩ => rfl
    | ⟨1, _⟩ => rfl
    | ⟨2, _⟩ => rfl)
  rw [hi, v1_at]
  rfl

/-- The spelt-out activation: gate · (1 / (1 + exp (-gate))) is gate times the logistic function of gate; the
    constant word is the real number one. -/
theorem v4_at (e : Fin 8) (r : Fin 1024) (j : Fin 4096) :
    Read.val_main_v4 (F := Ideal) x0 x1 (ix3 e r j)
      = Experts.gate x0 x1 e r j * Ideal.logistic (Experts.gate x0 x1 e r j) := by
  rw [Read.val_main_v4_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, v2_at]
  simp only [Ideal.ofBits_def, Ideal.ofBits_one_f32, Ideal.mulf_def, Ideal.hostDivf_def, Ideal.addf_def,
    Ideal.hostUnary_exp_def, Ideal.hostNegf_def, Ideal.negf_def]
  rfl

/-- The gated activation. -/
theorem v5_at (e : Fin 8) (r : Fin 1024) (j : Fin 4096) :
    Read.val_main_v5 (F := Ideal) x0 x1 (ix3 e r j) = Experts.act x0 x1 e r j := by
  rw [Read.val_main_v5_apply, v3_at, v4_at]
  rfl

/-- The second batched product: the activation row against a column of expert e's down weights. -/
theorem v6_at (e : Fin 8) (r : Fin 1024) (h : Fin 2048) :
    Read.val_main_v6 (F := Ideal) x0 x1 x2 (ix3 e r h) = Experts.out x0 x1 x2 e r h := by
  rw [Read.val_main_v6_apply]
  unfold Experts.out
  refine Finset.sum_congr rfl fun k _ => ?_
  have hl : Read.lidx_main_v6 (ix3 e r h) k = ix3 e r k := funext fun a => Fin.ext (by
    match a with
    | ⟨0, _⟩ => rfl
    | ⟨1, _⟩ => rfl
    | ⟨2, _⟩ => rfl)
  have hr : Read.ridx_main_v6 (ix3 e r h) k = ix3 e k h := funext fun a => Fin.ext (by
    match a with
    | ⟨0, _⟩ => rfl
    | ⟨1, _⟩ => rfl
    | ⟨2, _⟩ => rfl)
  rw [hl, hr, v5_at]

/-- The last reshape: row n of the result is token n % 1024 of expert n / 1024, since
    (n · 2048 + h) / (1024 · 2048) = n / 1024, (n · 2048 + h) / 2048 % 1024 = n % 1024 and the remainder is h. -/
theorem idx7_at (n : Fin 8192) (h : Fin 2048) :
    Read.idx_main_v7 (ix2 n h)
      = ix3 (⟨n.val / 1024, by have := n.isLt; omega⟩ : Fin 8) (⟨n.val % 1024, Nat.mod_lt _ (by norm_num)⟩ : Fin 1024) h := by
  refine funext fun a => Fin.ext ?_
  have hn : n.val < 8192 := n.isLt
  have hh : h.val < 2048 := h.isLt
  match a with
  | ⟨0, _⟩ => show (n.val * 2048 + h.val) / 2097152 = n.val / 1024; omega
  | ⟨1, _⟩ => show (n.val * 2048 + h.val) / 2048 % 1024 = n.val % 1024; omega
  | ⟨2, _⟩ => show (n.val * 2048 + h.val) % 2048 = h.val; omega

/-- The reference's last stage is the specification, index by index. -/
theorem result_eq (x0 : (⟨S8192x2048, .f32⟩ : BufTy).Contents (Elt Ideal)) (x1 : (⟨S8x2048x8192, .f32⟩ : BufTy).Contents (Elt Ideal))
    (x2 : (⟨S8x4096x2048, .f32⟩ : BufTy).Contents (Elt Ideal)) :
    Cert.ReferenceIdeal.Read.val_main_v7 (F := Ideal) x0 x1 x2 = Cert.Experts.G x0 x1 x2 := by
  funext i
  obtain ⟨n, h, rfl⟩ : ∃ (n : Fin 8192) (h : Fin 2048), i = ix2 n h := ⟨i 0, i 1, eq_ix2 i⟩
  rw [Read.val_main_v7_apply, idx7_at, v6_at]
  rfl

end Cert.ReferenceIdeal.RefValue

end
-- ==== Proof.lean ====
/-
  The certificate. The kernel is a grouped matrix product with a gated activation for eight experts: per expert,
  gate and up projections of its 1024 tokens (one batched product against a weight slab whose columns are the
  gate half then the up half), the activation up · (gate · σ(gate)) with σ the logistic function, and a second
  product against the down weights. The Pallas kernel tiles tokens by 128 and the 4096 intermediate columns by
  512, reading the gate chunk and the up chunk of a grid point as two blocks of the one weight array, and adds
  each chunk's partial product into an accumulator that is zeroed at a tile's first chunk and copied out at its
  last; the reference is two whole batched products around the activation written as gate · (1 / (1 + exp (−gate))).
  On the extended reals both are the same function of the three arrays: format changes are the identity, the
  logistic function IS that quotient, and eight partial sums of 512 terms regroup into the sum of 4096
  (addition is commutative and associative there; no finiteness is used). The three frames: each kernel program by
  the pipeline's launch over proof data that track the accumulator point by point, the reference by its run.
-/
import proofs.«143651_j38036230373627_1_alg».proof.Defs
import proofs.«143651_j38036230373627_1_alg».proof.Proof.Gen.Kernel
import proofs.«143651_j38036230373627_1_alg».proof.Proof.Gen.KernelIdeal
import proofs.«143651_j38036230373627_1_alg».proof.Proof.Gen.ReferenceIdeal
import proofs.«143651_j38036230373627_1_alg».proof.Proof.Gen.Pre_finite_inputs
import proofs.«143651_j38036230373627_1_alg».proof.Proof.K.Run
import proofs.«143651_j38036230373627_1_alg».proof.Proof.KI.Run
import proofs.«143651_j38036230373627_1_alg».proof.Proof.KI.Final
import proofs.«143651_j38036230373627_1_alg».proof.Proof.RefValue
import Idealize.ShloMosaic.Adequacy
import Idealize.ShloMosaic.Init

noncomputable section

namespace Cert.Proof

open Idealize.ShloMosaic Idealize.SL.Sem

/-- The word-level kernel program terminates and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program, -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- and the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end at the specification's function of them:
    the kernel's output array, flattened, by the accumulation; the reference's last stage operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Experts.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run Cert.KernelIdeal.defs _ _).mono
      (fun _ h c => ⟨((h c).1).trans (Cert.KernelIdeal.Hand.result_eq m c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
